-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S64x1024 : Shape := ⟨2, ![64, 1024]⟩
abbrev S1024x4096 : Shape := ⟨2, ![1024, 4096]⟩
abbrev S1 : Shape := ⟨1, ![1]⟩
abbrev S4096x128 : Shape := ⟨2, ![4096, 128]⟩
abbrev S4096x4096 : Shape := ⟨2, ![4096, 4096]⟩
abbrev S4096x64 : Shape := ⟨2, ![4096, 64]⟩
abbrev S4096x1 : Shape := ⟨2, ![4096, 1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1 : S_.BroadcastsInDim S1 (![] : Fin 0 → Fin S1.rank)
  reducesTo_S1_S_d0 : S1.ReducesTo [0] S_
  bcast_S_S4096x128 : S_.BroadcastsInDim S4096x128 (![] : Fin 0 → Fin S4096x128.rank)
  reducesTo_S4096x128_S_d0_1 : S4096x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part2 {F : FTy → Type} [FloatOps F] (main_arg7 : FVec F S4096x4096 .f32) (main_arg8 : FVec F S4096x64 .f32) (main_arg9 : FVec F S4096x1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x64 .f32 := Host.absf main_arg8
  let main_cst_14 : FVec F S_ .f32 := constant S_ .f32 0x7F800000#32
  let main_v40 : FVec F S4096x64 .f32 := broadcastInDim S4096x64 ![] bcast_S_S4096x64 main_cst_14
  let main_v41 : IVec S4096x64 1 := cmpf .olt main_v39 main_v40
  let main_c_15 : IVec S_ 1 := constantI S_ 1 1#1
  let main_v42 : IVec S_ 1 := (fun x v => Host.reduce IntOp.andi x v reducesTo_S4096x64_S_d0_1 h_S_) main_v41 main_c_15
  let main_v43 : IVec S_ 1 := andi main_v38 main_v42
  let main_v44 : FVec F S4096x1 .f32 := Host.absf main_arg9
  let main_cst_16 : FVec F S_ .f32 := constant S_ .f32 0x7F800000#32
  let main_v45 : FVec F S4096x1 .f32 := broadcastInDim S4096x1 ![] bcast_S_S4096x1 main_cst_16
  let main_v46 : IVec S4096x1 1 := cmpf .olt main_v44 main_v45
  let main_c_17 : IVec S_ 1 := constantI S_ 1 1#1
  let main_v47 : IVec S_ 1 := (fun x v => Host.reduce IntOp.andi x v reducesTo_S4096x1_S_d0_1 h_S_) main_v46 main_c_17
  let main_v48 : IVec S_ 1 := andi main_v43 main_v47
  main_v48

def fn_part1 {F : FTy → Type} [FloatOps F] (main_arg4 : FVec F S1 .f32) (main_arg5 : FVec F S1 .f32) (main_arg6 : FVec F S4096x128 .f32) (main_arg7 : FVec F S4096x4096 .f32) (main_arg8 : FVec F S4096x64 .f32) (main_arg9 : FVec F S4096x1 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S4096x128 .f32 := Host.absf main_arg6
  let main_cst_10 : FVec F S_ .f32 := constant S_ .f32 0x7F800000#32
  let main_v30 : FVec F S4096x128 .f32 := broadcastInDim S4096x128 ![] bcast_S_S4096x128 main_cst_10
  let main_v31 : IVec S4096x128 1 := cmpf .olt main_v29 main_v30
  let main_c_11 : IVec S_ 1 := constantI S_ 1 1#1
  let main_v32 : IVec S_ 1 := (fun x v => Host.reduce IntOp.andi x v reducesTo_S4096x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x128 .f32) (main_arg1 : FVec F S64x1024 .f32) (main_arg2 : FVec F S64x1024 .f32) (main_arg3 : FVec F S1024x4096 .f32) (main_arg4 : FVec F S1 .f32) (main_arg5 : FVec F S1 .f32) (main_arg6 : FVec F S4096x128 .f32) (main_arg7 : FVec F S4096x4096 .f32) (main_arg8 : FVec F S4096x64 .f32) (main_arg9 : FVec F S4096x1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_v13 main_v16
-- ==== Kernel.lean ====
abbrev S1024x128 : Shape := ⟨2, ![1024, 128]⟩
abbrev S64x1024 : Shape := ⟨2, ![64, 1024]⟩
abbrev S1024x4096 : Shape := ⟨2, ![1024, 4096]⟩
abbrev S1 : Shape := ⟨1, ![1]⟩
abbrev S4096x128 : Shape := ⟨2, ![4096, 128]⟩
abbrev S4096x4096 : Shape := ⟨2, ![4096, 4096]⟩
abbrev S4096x64 : Shape := ⟨2, ![4096, 64]⟩
abbrev S4096x1 : Shape := ⟨2, ![4096, 1]⟩
abbrev S_ : Shape := ⟨0, ![]⟩
abbrev S1024x64 : Shape := ⟨2, ![1024, 64]⟩
abbrev S1x4096 : Shape := ⟨2, ![1, 4096]⟩
abbrev S512x128 : Shape := ⟨2, ![512, 128]⟩
abbrev S512x1024 : Shape := ⟨2, ![512, 1024]⟩
abbrev S512x64 : Shape := ⟨2, ![512, 64]⟩
abbrev S1x512 : Shape := ⟨2, ![1, 512]⟩
abbrev S512x512 : Shape := ⟨2, ![512, 512]⟩

abbrev nBuf : Space → Nat
  | .hbm => 29
  | .vmem => 19
  | .smem => 0
  | _ => 0

abbrev bufTy : (tb : Table) → Fin (tcTables nBuf tb) → BufTy
  | .hbm, ⟨0, _⟩ => ⟨S1024x128, .f32⟩
  | .hbm, ⟨1, _⟩ => ⟨S64x1024, .f32⟩
  | .hbm, ⟨2, _⟩ => ⟨S64x1024, .f32⟩
  | .hbm, ⟨3, _⟩ => ⟨S1024x4096, .f32⟩
  | .hbm, ⟨4, _⟩ => ⟨S1, .f32⟩
  | .hbm, ⟨5, _⟩ => ⟨S1, .f32⟩
  | .hbm, ⟨6, _⟩ => ⟨S4096x128, .f32⟩
  | .hbm, ⟨7, _⟩ => ⟨S4096x4096, .f32⟩
  | .hbm, ⟨8, _⟩ => ⟨S4096x64, .f32⟩
  | .hbm, ⟨9, _⟩ => ⟨S4096x1, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S64x1024, .f32⟩
  | .hbm, ⟨26, _⟩ => ⟨S1024x64, .f32⟩
  | .hbm, ⟨27, _⟩ => ⟨S1x4096, .f32⟩
  | .hbm, ⟨28, _⟩ => ⟨S1024x4096, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  bcast_S_S64x1024 : S_.BroadcastsInDim S64x1024 (![] : Fin 0 → Fin S64x1024.rank)
  shapeCasts_S1_S_ : S1.ShapeCasts S_
  transposes_S64x1024_S1024x64_1_0 : S64x1024.Transposes [1, 0] S1024x64
  shapeCasts_S4096x1_S1x4096 : S4096x1.ShapeCasts S1x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  dot_S512x128_S512x128_S512x512_1_1_0_0_n_n_wf : DotDims.WF S512x128 S512x128 S512x512 [1] [1] [0] [0] [] []
  dot_S512x64_S512x64_S512x512_1_1_0_0_n_n_wf : DotDims.WF S512x64 S512x64 S512x512 [1] [1] [0] [0] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .f32 = 32 ∨ (Rect.block (s := S1024x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S1024x4096.size a
  hwx0_2 : ∀ i : grid0.Coords, EltTy.bits .f32 = 32 ∨ (Rect.block (s := S1024x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S1024x64.size a
  hwx0_4 : ∀ i : grid0.Coords, EltTy.bits .f32 = 32 ∨ (Rect.block (s := S1024x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S4096x64.size a
  hwx0_5 : ∀ i : grid0.Coords, EltTy.bits .f32 = 32 ∨ (Rect.block (s := S4096x64) S512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S1024x4096.size a
  hwx0_7 : ∀ i : grid0.Coords, EltTy.bits .f32 = 32 ∨ (Rect.block (s := S1024x4096) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S1024x4096.size a
  hwx0_8 : ∀ i : grid0.Coords, EltTy.bits .f32 = 32 ∨ (Rect.block (s := S1024x4096) S512x512.size (cc0_transform_8 i) (hinb0_8 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S1024x128 : Shape := ⟨2, ![1024, 128]⟩
abbrev S64x1024 : Shape := ⟨2, ![64, 1024]⟩
abbrev S1024x4096 : Shape := ⟨2, ![1024, 4096]⟩
abbrev S1 : Shape := ⟨1, ![1]⟩
abbrev S4096x128 : Shape := ⟨2, ![4096, 128]⟩
abbrev S4096x4096 : Shape := ⟨2, ![4096, 4096]⟩
abbrev S4096x64 : Shape := ⟨2, ![4096, 64]⟩
abbrev S4096x1 : Shape := ⟨2, ![4096, 1]⟩
abbrev S_ : Shape := ⟨0, ![]⟩
abbrev S128x4096 : Shape := ⟨2, ![128, 4096]⟩
abbrev S1024x64 : Shape := ⟨2, ![1024, 64]⟩
abbrev S64x4096 : Shape := ⟨2, ![64, 4096]⟩
abbrev S4096 : Shape := ⟨1, ![4096]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S64x1024, .f32⟩
  | .hbm, ⟨2, _⟩ => ⟨S64x1024, .f32⟩
  | .hbm, ⟨3, _⟩ => ⟨S1024x4096, .f32⟩
  | .hbm, ⟨4, _⟩ => ⟨S1, .f32⟩
  | .hbm, ⟨5, _⟩ => ⟨S1, .f32⟩
  | .hbm, ⟨6, _⟩ => ⟨S4096x128, .f32⟩
  | .hbm, ⟨7, _⟩ => ⟨S4096x4096, .f32⟩
  | .hbm, ⟨8, _⟩ => ⟨S4096x64, .f32⟩
  | .hbm, ⟨9, _⟩ => ⟨S4096x1, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S64x1024, .f32⟩
  | .hbm, ⟨26, _⟩ => ⟨S128x4096, .f32⟩
  | .hbm, ⟨27, _⟩ => ⟨S1024x4096, .f32⟩
  | .hbm, ⟨28, _⟩ => ⟨S4096x4096, .f32⟩
  | .hbm, ⟨29, _⟩ => ⟨S1024x4096, .f32⟩
  | .hbm, ⟨30, _⟩ => ⟨S1024x4096, .f32⟩
  | .hbm, ⟨31, _⟩ => ⟨S1024x64, .f32⟩
  | .hbm, ⟨32, _⟩ => ⟨S64x4096, .f32⟩
  | .hbm, ⟨33, _⟩ => ⟨S1024x4096, .f32⟩
  | .hbm, ⟨34, _⟩ => ⟨S1024x4096, .f32⟩
  | .hbm, ⟨35, _⟩ => ⟨S4096, .f32⟩
  | .hbm, ⟨36, _⟩ => ⟨S1x4096, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S1024x4096, .f32⟩
  | .hbm, ⟨41, _⟩ => ⟨S1024x4096, .f32⟩
  | .hbm, ⟨42, _⟩ => ⟨S1024x4096, .f32⟩
  | .hbm, ⟨43, _⟩ => ⟨S_, .f32⟩
  | .hbm, ⟨44, _⟩ => ⟨S1024x4096, .f32⟩
  | .hbm, ⟨45, _⟩ => ⟨S1024x4096, .f32⟩
  | .hbm, ⟨46, _⟩ => ⟨S1024x4096, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  shapeCasts_S1_S_ : S1.ShapeCasts S_
  transposes_S4096x128_S128x4096_1_0 : S4096x128.Transposes [1, 0] S128x4096
  transposes_S4096x4096_S4096x4096_1_0 : S4096x4096.Transposes [1, 0] S4096x4096
  transposes_S64x1024_S1024x64_1_0 : S64x1024.Transposes [1, 0] S1024x64
  transposes_S4096x64_S64x4096_1_0 : S4096x64.Transposes [1, 0] S64x4096
  shapeCasts_S4096x1_S4096 : S4096x1.ShapeCasts S4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  dot_S1024x128_S128x4096_S1024x4096_1_0_0_1_n_n_wf : DotDims.WF S1024x128 S128x4096 S1024x4096 [1] [0] [0] [1] [] []
  dot_S1024x4096_S4096x4096_S1024x4096_1_0_0_1_n_n_wf : DotDims.WF S1024x4096 S4096x4096 S1024x4096 [1] [0] [0] [1] [] []
  dot_S1024x64_S64x4096_S1024x4096_1_0_0_1_n_n_wf : DotDims.WF S1024x64 S64x4096 S1024x4096 [1] [0] [0] [1] [] []

variable [Facts₀]

def dot_S1024x128_S128x4096_S1024x4096_1_0_0_1_n_n : DotDims S1024x128 S128x4096 S1024x4096 where
  lhsContracting := [1]
  rhsContracting := [0]
  lhsNonContracting := [0]
  rhsNonContracting := [1]
  lhsBatch := []
  rhsBatch := []
  wf := dot_S1024x128_S128x4096_S1024x4096_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf
def dot_S1024x64_S64x4096_S1024x4096_1_0_0_1_n_n : DotDims S1024x64 S64x4096 S1024x4096 where
  lhsContracting := [1]
  rhsContracting := [0]
  lhsNonContracting := [0]
  rhsNonContracting := [1]
  lhsBatch := []
  rhsBatch := []
  wf := dot_S1024x64_S64x4096_S1024x4096_1_0_0_1_n_n_wf

class Facts : Prop extends Facts₀ where

variable [Facts]
-- ==== Proof.K.Shared.lean ====
import proofs.«143047_j60146722013580_1_alg».proof.Proof.Gen.Kernel.Launch
import proofs.«143047_j60146722013580_1_alg».proof.Proof.Gen.Kernel.Skeleton
import proofs.«143047_j60146722013580_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel

The kernel is entered after three stretches of host operations: the teacher-forcing selection (scale, shift,
compare, select), its transpose, and the bias column read as a row. -/

/-- Core `c`'s buffer contents when the kernel is entered, as a valuation. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is those three stretches and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the kernel writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid

The grid is (batch tile, output tile, reduction tile) = 2 × 8 × 4, the reduction tile the fastest axis: point `t`
is at reduction step `t % 4`. The accumulator is reset at step 0 and the result is stored at step 3. -/

/-- "This is the first reduction step", as the body computes it. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last reduction step", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle: the inputs never; the output at every step but the last -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
/-- The accumulator: a scratch buffer of the kernel's own, carried from one grid point to the next. -/
abbrev scM0_0 : Memref sig .tc .vmem S512x512 .f32 := Memref.whole cc0_scratch0
abbrev VS0_0 : View sig .tc .vmem S512x512 .f32 := scM0_0.view
/-- One staging buffer of the output window, through which its contents are stated. -/
abbrev VO0_8 : View sig .tc .vmem S512x512 .f32 := (Memref.whole cc0_stg8_0 : Memref sig .tc .vmem S512x512 .f32).view

/-- The kernel's invariant before the first point: the accumulator at any contents, the generator register at any state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
import proofs.«143047_j60146722013580_1_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST reduction step (reset taken, final store not taken): on whole staging memrefs, the inputs'
    at contents `x·`, the output's at `xi8` (handed back untouched), the accumulator at anything, it runs to the
    continuation holding the inputs' and the output's as they were and the accumulator with the pieces `LS0` its two
    stores wrote (the reset, then the first partial product added). The pieces are found by running the body. -/
noncomputable def kernelRun0_A (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) :
    Σ' (L8 : List (View.Piece (Elt F) S512x512 .f32)), { LS0 : List (View.Piece (Elt F) S512x512 .f32) //
      ∀ (xi8 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__esn_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__esn_kernel_eq_skeleton]; unfold cc0__esn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.Kernel.Hand

end
-- ==== Proof.K.RunB.lean ====
import proofs.«143047_j60146722013580_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE reduction step (neither conditional taken): the accumulator, found at what the step before
    left (`xs0`), ends with the pieces `LS0` of its one store (the next partial product added); everything else is
    handed back as found. -/
noncomputable def kernelRun0_B (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) :
    Σ' (L8 : List (View.Piece (Elt F) S512x512 .f32)), { LS0 : List (View.Piece (Elt F) S512x512 .f32) //
      ∀ (xi8 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__esn_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__esn_kernel_eq_skeleton]; unfold cc0__esn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.Kernel.Hand

end
-- ==== Proof.K.RunC.lean ====
import proofs.«143047_j60146722013580_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST reduction step (reset not taken, final store taken): the accumulator, found at what the step
    before left (`xs0`), ends with the pieces `LS0` of its one store, and the output's buffer, found at anything, with the
    pieces `L8` of the final store (the blend of the state block with the hyperbolic tangent of the accumulator). -/
noncomputable def kernelRun0_C (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) :
    Σ' (L8 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__esn_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__esn_kernel_eq_skeleton]; unfold cc0__esn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Hand

end
-- ==== Proof.K.Frame.lean ====
import proofs.«143047_j60146722013580_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator and in the output's buffer

Each is the case's pieces read back; where a case stores nothing into the output (the first and the middle
reduction steps) the output's entry is a placeholder nothing consults: there the window is idle and not written back. -/

def out0_A_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) : Vec F S512x512 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 hc0 hc1 x0 x1 x2 x3 x4 x5 x6 x7).1)
/-- The first step's two accumulator stores each cover the accumulator whole. -/
theorem scover0_A_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (y : S512x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1 S512x512.size (by sl_kernel_rfl) y
def sout0_A_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) : Vec F S512x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1)

def out0_B_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).1)
/-- A middle step's one accumulator store covers the accumulator whole. -/
theorem scover0_B_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) (y : S512x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1 S512x512.size (by sl_kernel_rfl) y
def sout0_B_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1)

/-- The last step's final store covers the output's block whole. -/
theorem cover0_C_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1 S512x512.size (by sl_kernel_rfl) y
def out0_C_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1)
theorem scover0_C_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S512x512.size (by sl_kernel_rfl) y
def sout0_C_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1)

/-! ## The same at a grid point: the point's memrefs and its eight input blocks -/

/-- (output buffer, accumulator) after a first step at point `t`. -/
def atA (c : Dev nD) (t : Fin cfg0.N) (hc0 : cond0_0 (grid0.coords t)) (hc1 : ¬cond0_1 (grid0.coords t)) : Vec F S512x512 .f32 × Vec F S512x512 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t))
/-- (output buffer, accumulator) after a middle step at point `t`, the accumulator found at `xs0`. -/
def atB (c : Dev nD) (t : Fin cfg0.N) (hc0 : ¬cond0_0 (grid0.coords t)) (hc1 : ¬cond0_1 (grid0.coords t)) (xs0 : Vec F S512x512 .f32) : Vec F S512x512 .f32 × Vec F S512x512 .f32 :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0)
/-- (output buffer, accumulator) after a last step at point `t`, the accumulator found at `xs0`. -/
def atC (c : Dev nD) (t : Fin cfg0.N) (hc0 : ¬cond0_0 (grid0.coords t)) (hc1 : cond0_1 (grid0.coords t)) (xs0 : Vec F S512x512 .f32) : Vec F S512x512 .f32 × Vec F S512x512 .f32 :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0)

/-! ## The accumulation, point by point -/

/-- What the output's buffer and the accumulator hold after the body at position `n`: the case `n % 4` selects, run at
    the point's memrefs and input blocks, the accumulator taken from position `n - 1` at every step but the first. -/
def outsAt0 (c : Dev nD) : (n : ℕ) → n < cfg0.N → Vec F S512x512 .f32 × Vec F S512x512 .f32
  | 0, hn => atA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      if h1 : (n + 1) % 4 = 3 then
        False.elim (by omega)
      else
        atA m c ⟨n + 1, hn⟩ ((hcond0_0 ⟨n + 1, hn⟩).mpr h0) (fun h => h1 ((hcond0_1 ⟨n + 1, hn⟩).mp h))
    else
      if h1 : (n + 1) % 4 = 3 then
        atC m c ⟨n + 1, hn⟩ (fun h => h0 ((hcond0_0 ⟨n + 1, hn⟩).mp h)) ((hcond0_1 ⟨n + 1, hn⟩).mpr h1) (outsAt0 c n (Nat.lt_of_succ_lt hn)).2
      else
        atB m c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 4 = 0) (h1 : ¬t.val % 4 = 3) :
    outsAt0 m c t.val t.isLt = atA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = atB m c t (fun h => h0 ((hcond0_0 t).mp h)) (fun h => h1 ((hcond0_1 t).mp h)) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = atC m c t (fun h => h0 ((hcond0_0 t).mp h)) ((hcond0_1 t).mpr h1) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The kernel's invariant: the accumulator, point by point

Before the first point the accumulator holds anything; after point `n` it holds `outsAt0`'s second component. -/

theorem scratch0_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data

The state array is read through two windows (the reduction operand and the blend operand): each holds half of it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare
    | ⟨7, _⟩ => fullShare.right
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]

/-! ## The body at a generic grid point -/

/-- What the body is called with at point `t`: the invariant, nothing owed, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point. Every input buffer holds its block; `t % 4` says which case the point is in; the case's run
    applies, the accumulator handed in at what the point before left (at anything at the first point) and taken back at
    this point's contents, because the case's accumulator stores cover it. At the first and the middle steps the output's
    buffer is handed back untouched (the window is idle there); at the last step it is taken back at the final store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬ t.val % 4 = 3 := by omega
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [outsAt0_A m c t h0 h1]
    unfold atA sout0_A_0; (try dsimp only)
    by_cases hz : t.val = 0
    · rw [PhiS_castSucc m c t, PhiS_zero m c _ _ hz, scratch0_eq]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := by omega
    by_cases h1 : t.val % 4 = 3
    · rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold atC out0_C_8 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold atB sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the kernel -/

/-- What the launch hands the kernel of its own buffers is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the accumulator's contents are forgotten again. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scratch0_eq]
  iintro HS0
  isplitr; · iempintro
  iexists _; iexact HS0

/-! ## The arrays at entry: the state array dealt to its two windows

Eight distinct buffers stand behind the nine windows: the state array is read by the reduction operand's window and
by the blend operand's. Its full share splits in two halves, one for each; every other array goes to its window whole. -/

theorem arrRefs_eq : (Finset.univ.image (Pipeline.arrRef spec0) : Finset (Ref sig .tc))
    = [main_arg0, main_arg6, main_arg3, main_arg7, main_v12, main_arg8, main_v13, main_v14].toFinset := by decide

/-- Window `w`'s array at entry, held at the share `q` the proof data give it, as a points-to of the buffer behind it. -/
theorem arr_eq (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]; rfl

/-- The buffers behind the windows' arrays, one by one. -/
theorem arrBufs_eq (c : Dev nD) (Φ : Ref sig .tc → sProp 𝕄) :
    bigSep (Finset.univ.image (Pipeline.arrRef spec0)) Φ
      = iprop(Φ main_arg0 ∗ Φ main_arg6 ∗ Φ main_arg3 ∗ Φ main_arg7 ∗ Φ main_v12 ∗ Φ main_arg8 ∗ Φ main_v13 ∗ Φ main_v14) :=
  bigSep_eq_bigSepL_of_eq [main_arg0, main_arg6, main_arg3, main_arg7, main_v12, main_arg8, main_v13, main_v14] arrRefs_eq (by decide) Φ

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrBufs_eq c, bigSep_W0]
  rw [arr_eq m c 0 fullShare rfl, arr_eq m c 1 fullShare rfl, arr_eq m c 2 fullShare.left rfl, arr_eq m c 3 fullShare rfl,
    arr_eq m c 4 fullShare rfl, arr_eq m c 5 fullShare rfl, arr_eq m c 6 fullShare rfl, arr_eq m c 7 fullShare.right rfl,
    arr_eq m c 8 fullShare rfl]
  have hhalves : (((c.tc : Thread nD τ).loc (Pipeline.arrRef spec0 2)) ↦{fullShare} V m c (Pipeline.arrRef spec0 2) : sProp 𝕄)
      ⊢ iprop((((c.tc : Thread nD τ).loc (Pipeline.arrRef spec0 2)) ↦{fullShare.left} V m c (Pipeline.arrRef spec0 2)) ∗ (((c.tc : Thread nD τ).loc (Pipeline.arrRef spec0 2)) ↦{fullShare.right} V m c (Pipeline.arrRef spec0 2))) :=
    (pointsTo_share (PosShare.mem_left_op_right fullShare)).1
  iintro ⟨Ha0, Ha6, Ha3, Ha7, Hv12, Ha8, Hv13, Hv14⟩
  ihave Hh := hhalves $$ Ha3
  icases Hh with ⟨Ha3l, Ha3r⟩
  isplitl [Ha0]; · iexact Ha0
  isplitl [Ha6]; · iexact Ha6
  isplitl [Ha3l]; · iexact Ha3l
  isplitl [Ha7]; · iexact Ha7
  isplitl [Hv12]; · iexact Hv12
  isplitl [Ha8]; · iexact Ha8
  isplitl [Hv13]; · iexact Hv13
  isplitl [Ha3r]; · iexact Ha3r
  iexact Hv14

/-! ## The run and the frame -/

/-- From any memory with zero counters every weakly fair execution of the program terminates, and in every final state
    each windowed array holds what the proof data compute (an input its entry contents; the output the entry contents
    overwritten by each written-back block) and every other unscoped buffer what it held when the kernel was entered. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := _) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- The frame: the program runs to the end, faults nowhere, and leaves its ten argument arrays as they were. The five
    the kernel reads through windows are inputs (never written); the other five no window touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats m 0 c).arrAt_in 1 rfl _).trans ((A_eq m c 1).trans (V_main_arg6 m c))),
      ((h c).1 3).trans (((dats m 0 c).arrAt_in 3 rfl _).trans ((A_eq m c 3).trans (V_main_arg7 m c))),
      ((h c).1 5).trans (((dats m 0 c).arrAt_in 5 rfl _).trans ((A_eq m c 5).trans (V_main_arg8 m c))),
      ((h c).2 main_arg9 (Pipeline.mem_restRefs_of main_arg9 (by decide) (by decide))).trans (V_main_arg9 m c)⟩)
    (run_main m ρ)

end Cert.Kernel.Hand

end
-- ==== Proof.KI.Shared.lean ====
import proofs.«143047_j60146722013580_1_alg».proof.Proof.Gen.KernelIdeal.Launch
import proofs.«143047_j60146722013580_1_alg».proof.Proof.Gen.KernelIdeal.Skeleton
import proofs.«143047_j60146722013580_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel

The kernel is entered after three stretches of host operations: the teacher-forcing selection (scale, shift,
compare, select), its transpose, and the bias column read as a row. -/

/-- Core `c`'s buffer contents when the kernel is entered, as a valuation. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is those three stretches and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the kernel writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the kernel writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof data
    whose array is the entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid

The grid is (batch tile, output tile, reduction tile) = 2 × 8 × 4, the reduction tile the fastest axis: point `t`
is at reduction step `t % 4`. The accumulator is reset at step 0 and the result is stored at step 3. -/

/-- "This is the first reduction step", as the body computes it. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last reduction step", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle: the inputs never; the output at every step but the last -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
/-- The accumulator: a scratch buffer of the kernel's own, carried from one grid point to the next. -/
abbrev scM0_0 : Memref sig .tc .vmem S512x512 .f32 := Memref.whole cc0_scratch0
abbrev VS0_0 : View sig .tc .vmem S512x512 .f32 := scM0_0.view
/-- One staging buffer of the output window, through which its contents are stated. -/
abbrev VO0_8 : View sig .tc .vmem S512x512 .f32 := (Memref.whole cc0_stg8_0 : Memref sig .tc .vmem S512x512 .f32).view

/-- The kernel's invariant before the first point: the accumulator at any contents, the generator register at any state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
import proofs.«143047_j60146722013580_1_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST reduction step (reset taken, final store not taken): on whole staging memrefs, the inputs'
    at contents `x·`, the output's at `xi8` (handed back untouched), the accumulator at anything, it runs to the
    continuation holding the inputs' and the output's as they were and the accumulator with the pieces `LS0` its two
    stores wrote (the reset, then the first partial product added). The pieces are found by running the body. -/
noncomputable def kernelRun0_A (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) :
    Σ' (L8 : List (View.Piece (Elt F) S512x512 .f32)), { LS0 : List (View.Piece (Elt F) S512x512 .f32) //
      ∀ (xi8 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__esn_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__esn_kernel_eq_skeleton]; unfold cc0__esn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.KernelIdeal.Hand

end
-- ==== Proof.KI.RunB.lean ====
import proofs.«143047_j60146722013580_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE reduction step (neither conditional taken): the accumulator, found at what the step before
    left (`xs0`), ends with the pieces `LS0` of its one store (the next partial product added); everything else is
    handed back as found. -/
noncomputable def kernelRun0_B (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) :
    Σ' (L8 : List (View.Piece (Elt F) S512x512 .f32)), { LS0 : List (View.Piece (Elt F) S512x512 .f32) //
      ∀ (xi8 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xi8 ∗ (∃ f, arg12.view.loc (c : Thread nD τ) ↦[arg12.view.set]{fullShare} arg12.view.writes (Elt F) f LS0)) -∗ K ⟨⟩))
          ⊢ wp frame (wpE (defs₀ (F := F)) Variants.none c none) E (cc0__esn_kernel i arg3 harg3 arg4 harg4 arg5 harg5 arg6 harg6 arg7 harg7 arg8 harg8 arg9 harg9 arg10 harg10 arg11 harg11 arg12 harg12) K } := by
  refine ⟨[], ?_, fun xi8 E K => ?run⟩
  case run =>
    simp only [cc0__esn_kernel_eq_skeleton]; unfold cc0__esn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS0

end Cert.KernelIdeal.Hand

end
-- ==== Proof.KI.RunC.lean ====
import proofs.«143047_j60146722013580_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST reduction step (reset not taken, final store taken): the accumulator, found at what the step
    before left (`xs0`), ends with the pieces `LS0` of its one store, and the output's buffer, found at anything, with the
    pieces `L8` of the final store (the blend of the state block with the hyperbolic tangent of the accumulator). -/
noncomputable def kernelRun0_C (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) :
    Σ' (L8 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc0__esn_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__esn_kernel_eq_skeleton]; unfold cc0__esn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Hand

end
-- ==== Proof.KI.Frame.lean ====
import proofs.«143047_j60146722013580_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator and in the output's buffer

Each is the case's pieces read back; where a case stores nothing into the output (the first and the middle
reduction steps) the output's entry is a placeholder nothing consults: there the window is idle and not written back. -/

def out0_A_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) : Vec F S512x512 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 hc0 hc1 x0 x1 x2 x3 x4 x5 x6 x7).1)
/-- The first step's two accumulator stores each cover the accumulator whole. -/
theorem scover0_A_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (y : S512x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1 S512x512.size (by sl_kernel_rfl) y
def sout0_A_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) : Vec F S512x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5 x6 x7).2.1)

def out0_B_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).1)
/-- A middle step's one accumulator store covers the accumulator whole. -/
theorem scover0_B_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) (y : S512x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1 S512x512.size (by sl_kernel_rfl) y
def sout0_B_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 x6 x7 xs0).2.1)

/-- The last step's final store covers the output's block whole. -/
theorem cover0_C_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1 S512x512.size (by sl_kernel_rfl) y
def out0_C_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).1)
theorem scover0_C_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) (y : S512x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S512x512.size (by sl_kernel_rfl) y
def sout0_C_0 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) : Vec F S512x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 x6 x7 xs0).2.1)

/-! ## The same at a grid point: the point's memrefs and its eight input blocks -/

/-- (output buffer, accumulator) after a first step at point `t`. -/
def atA (c : Dev nD) (t : Fin cfg0.N) (hc0 : cond0_0 (grid0.coords t)) (hc1 : ¬cond0_1 (grid0.coords t)) : Vec F S512x512 .f32 × Vec F S512x512 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t))
/-- (output buffer, accumulator) after a middle step at point `t`, the accumulator found at `xs0`. -/
def atB (c : Dev nD) (t : Fin cfg0.N) (hc0 : ¬cond0_0 (grid0.coords t)) (hc1 : ¬cond0_1 (grid0.coords t)) (xs0 : Vec F S512x512 .f32) : Vec F S512x512 .f32 × Vec F S512x512 .f32 :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0)
/-- (output buffer, accumulator) after a last step at point `t`, the accumulator found at `xs0`. -/
def atC (c : Dev nD) (t : Fin cfg0.N) (hc0 : ¬cond0_0 (grid0.coords t)) (hc1 : cond0_1 (grid0.coords t)) (xs0 : Vec F S512x512 .f32) : Vec F S512x512 .f32 × Vec F S512x512 .f32 :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0)

/-! ## The accumulation, point by point -/

/-- What the output's buffer and the accumulator hold after the body at position `n`: the case `n % 4` selects, run at
    the point's memrefs and input blocks, the accumulator taken from position `n - 1` at every step but the first. -/
def outsAt0 (c : Dev nD) : (n : ℕ) → n < cfg0.N → Vec F S512x512 .f32 × Vec F S512x512 .f32
  | 0, hn => atA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      if h1 : (n + 1) % 4 = 3 then
        False.elim (by omega)
      else
        atA m c ⟨n + 1, hn⟩ ((hcond0_0 ⟨n + 1, hn⟩).mpr h0) (fun h => h1 ((hcond0_1 ⟨n + 1, hn⟩).mp h))
    else
      if h1 : (n + 1) % 4 = 3 then
        atC m c ⟨n + 1, hn⟩ (fun h => h0 ((hcond0_0 ⟨n + 1, hn⟩).mp h)) ((hcond0_1 ⟨n + 1, hn⟩).mpr h1) (outsAt0 c n (Nat.lt_of_succ_lt hn)).2
      else
        atB m c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 4 = 0) (h1 : ¬t.val % 4 = 3) :
    outsAt0 m c t.val t.isLt = atA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = atB m c t (fun h => h0 ((hcond0_0 t).mp h)) (fun h => h1 ((hcond0_1 t).mp h)) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = atC m c t (fun h => h0 ((hcond0_0 t).mp h)) ((hcond0_1 t).mpr h1) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The kernel's invariant: the accumulator, point by point

Before the first point the accumulator holds anything; after point `n` it holds `outsAt0`'s second component. -/

theorem scratch0_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data

The state array is read through two windows (the reduction operand and the blend operand): each holds half of it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare
    | ⟨7, _⟩ => fullShare.right
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]

/-! ## The body at a generic grid point -/

/-- What the body is called with at point `t`: the invariant, nothing owed, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point. Every input buffer holds its block; `t % 4` says which case the point is in; the case's run
    applies, the accumulator handed in at what the point before left (at anything at the first point) and taken back at
    this point's contents, because the case's accumulator stores cover it. At the first and the middle steps the output's
    buffer is handed back untouched (the window is idle there); at the last step it is taken back at the final store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬ t.val % 4 = 3 := by omega
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [outsAt0_A m c t h0 h1]
    unfold atA sout0_A_0; (try dsimp only)
    by_cases hz : t.val = 0
    · rw [PhiS_castSucc m c t, PhiS_zero m c _ _ hz, scratch0_eq]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := by omega
    by_cases h1 : t.val % 4 = 3
    · rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold atC out0_C_8 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold atB sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the kernel -/

/-- What the launch hands the kernel of its own buffers is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the accumulator's contents are forgotten again. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scratch0_eq]
  iintro HS0
  isplitr; · iempintro
  iexists _; iexact HS0

/-! ## The arrays at entry: the state array dealt to its two windows

Eight distinct buffers stand behind the nine windows: the state array is read by the reduction operand's window and
by the blend operand's. Its full share splits in two halves, one for each; every other array goes to its window whole. -/

theorem arrRefs_eq : (Finset.univ.image (Pipeline.arrRef spec0) : Finset (Ref sig .tc))
    = [main_arg0, main_arg6, main_arg3, main_arg7, main_v12, main_arg8, main_v13, main_v14].toFinset := by decide

/-- Window `w`'s array at entry, held at the share `q` the proof data give it, as a points-to of the buffer behind it. -/
theorem arr_eq (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]; rfl

/-- The buffers behind the windows' arrays, one by one. -/
theorem arrBufs_eq (c : Dev nD) (Φ : Ref sig .tc → sProp 𝕄) :
    bigSep (Finset.univ.image (Pipeline.arrRef spec0)) Φ
      = iprop(Φ main_arg0 ∗ Φ main_arg6 ∗ Φ main_arg3 ∗ Φ main_arg7 ∗ Φ main_v12 ∗ Φ main_arg8 ∗ Φ main_v13 ∗ Φ main_v14) :=
  bigSep_eq_bigSepL_of_eq [main_arg0, main_arg6, main_arg3, main_arg7, main_v12, main_arg8, main_v13, main_v14] arrRefs_eq (by decide) Φ

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrBufs_eq c, bigSep_W0]
  rw [arr_eq m c 0 fullShare rfl, arr_eq m c 1 fullShare rfl, arr_eq m c 2 fullShare.left rfl, arr_eq m c 3 fullShare rfl,
    arr_eq m c 4 fullShare rfl, arr_eq m c 5 fullShare rfl, arr_eq m c 6 fullShare rfl, arr_eq m c 7 fullShare.right rfl,
    arr_eq m c 8 fullShare rfl]
  have hhalves : (((c.tc : Thread nD τ).loc (Pipeline.arrRef spec0 2)) ↦{fullShare} V m c (Pipeline.arrRef spec0 2) : sProp 𝕄)
      ⊢ iprop((((c.tc : Thread nD τ).loc (Pipeline.arrRef spec0 2)) ↦{fullShare.left} V m c (Pipeline.arrRef spec0 2)) ∗ (((c.tc : Thread nD τ).loc (Pipeline.arrRef spec0 2)) ↦{fullShare.right} V m c (Pipeline.arrRef spec0 2))) :=
    (pointsTo_share (PosShare.mem_left_op_right fullShare)).1
  iintro ⟨Ha0, Ha6, Ha3, Ha7, Hv12, Ha8, Hv13, Hv14⟩
  ihave Hh := hhalves $$ Ha3
  icases Hh with ⟨Ha3l, Ha3r⟩
  isplitl [Ha0]; · iexact Ha0
  isplitl [Ha6]; · iexact Ha6
  isplitl [Ha3l]; · iexact Ha3l
  isplitl [Ha7]; · iexact Ha7
  isplitl [Hv12]; · iexact Hv12
  isplitl [Ha8]; · iexact Ha8
  isplitl [Hv13]; · iexact Hv13
  isplitl [Ha3r]; · iexact Ha3r
  iexact Hv14

/-! ## The run and the frame -/

/-- From any memory with zero counters every weakly fair execution of the program terminates, and in every final state
    each windowed array holds what the proof data compute (an input its entry contents; the output the entry contents
    overwritten by each written-back block) and every other unscoped buffer what it held when the kernel was entered. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := _) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- The frame: the program runs to the end, faults nowhere, and leaves its ten argument arrays as they were. The five
    the kernel reads through windows are inputs (never written); the other five no window touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats m 0 c).arrAt_in 1 rfl _).trans ((A_eq m c 1).trans (V_main_arg6 m c))),
      ((h c).1 3).trans (((dats m 0 c).arrAt_in 3 rfl _).trans ((A_eq m c 3).trans (V_main_arg7 m c))),
      ((h c).1 5).trans (((dats m 0 c).arrAt_in 5 rfl _).trans ((A_eq m c 5).trans (V_main_arg8 m c))),
      ((h c).2 main_arg9 (Pipeline.mem_restRefs_of main_arg9 (by decide) (by decide))).trans (V_main_arg9 m c)⟩)
    (run_main m ρ)

end Cert.KernelIdeal.Hand

end
-- ==== Proof.KI.Pieces.lean ====
import proofs.«143047_j60146722013580_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the body's stores leave, as the skeleton's payloads

The first reduction step resets the accumulator (bias, input drive, output feedback) and adds the first partial
product; a middle step adds the next partial product to what it found; the last step does the same and stores the
blended result. -/

/-- The zero offsets of a whole-tile access, as the constant function. -/
theorem hz : (![0, 0] : Fin 2 → Nat) = fun _ => 0 := funext fun a => by fin_cases a <;> rfl

theorem sout0_A_0_eq (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 x7 = k0_pay2 (k0_pay1 x6 x0 x1 x4 x5) x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread,
    harg7.read_unread, harg8.read_unread, harg9.read_unread,
    View.ld_unit_zero (S := S512x128) hz, View.ld_unit_zero (S := S512x1024) hz, View.ld_unit_zero (S := S512x64) hz,
    View.ld_unit_zero (S := S1x512) hz]

theorem sout0_B_0_eq (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : ¬cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 x7 xs0 = k0_pay2 xs0 x2 x3 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_unit_zero (S := S512x512) hz]
  simp only [View.readAt_eq_ld, harg12.read_unread, harg5.read_unread, harg6.read_unread,
    View.ld_unit_zero (S := S512x512) hz, View.ld_unit_zero (S := S512x1024) hz]

theorem sout0_C_0_eq (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 x7 xs0 = k0_pay2 xs0 x2 x3 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S512x512) hz]
  simp only [View.readAt_eq_ld, harg12.read_unread, harg5.read_unread, harg6.read_unread,
    View.ld_unit_zero (S := S512x512) hz, View.ld_unit_zero (S := S512x1024) hz]

theorem out0_C_8_eq (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i)
    (x0 : Vec F S512x128 .f32) (x1 : Vec F S512x128 .f32) (x2 : Vec F S512x1024 .f32) (x3 : Vec F S512x1024 .f32) (x4 : Vec F S512x64 .f32) (x5 : Vec F S512x64 .f32) (x6 : Vec F S1x512 .f32) (x7 : Vec F S512x512 .f32) (xs0 : Vec F S512x512 .f32) :
    out0_C_8 c i arg3 harg3 arg4 harg4 arg5 harg5 arg6 harg6 arg7 harg7 arg8 harg8 arg9 harg9 arg10 harg10 arg11 harg11 arg12 harg12 hc0 hc1 x0 x1 x2 x3 x4 x5 x6 x7 xs0 = k0_pay3 (k0_pay2 xs0 x2 x3) x7 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S512x512) hz, View.readCov_unit_zero (S := S512x512) _ hz]
  simp only [View.readAt_eq_ld, harg12.read_unread, harg5.read_unread, harg6.read_unread, harg10.read_unread,
    View.ld_unit_zero (S := S512x512) hz, View.ld_unit_zero (S := S512x1024) hz]

/-! ## The same at a grid point, over the point's input blocks -/

theorem atA_acc (c : Dev nD) (t : Fin cfg0.N) (hc0 : cond0_0 (grid0.coords t)) (hc1 : ¬cond0_1 (grid0.coords t)) :
    (atA m c t hc0 hc1).2 = k0_pay2 (k0_pay1 (iblk m c 6 t) (iblk m c 0 t) (iblk m c 1 t) (iblk m c 4 t) (iblk m c 5 t)) (iblk m c 2 t) (iblk m c 3 t) := by
  unfold atA; dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t)

theorem atB_acc (c : Dev nD) (t : Fin cfg0.N) (hc0 : ¬cond0_0 (grid0.coords t)) (hc1 : ¬cond0_1 (grid0.coords t)) (xs0 : Vec F S512x512 .f32) :
    (atB m c t hc0 hc1 xs0).2 = k0_pay2 xs0 (iblk m c 2 t) (iblk m c 3 t) := by
  unfold atB; dsimp only
  exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0

theorem atC_acc (c : Dev nD) (t : Fin cfg0.N) (hc0 : ¬cond0_0 (grid0.coords t)) (hc1 : cond0_1 (grid0.coords t)) (xs0 : Vec F S512x512 .f32) :
    (atC m c t hc0 hc1 xs0).2 = k0_pay2 xs0 (iblk m c 2 t) (iblk m c 3 t) := by
  unfold atC; dsimp only
  exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0

theorem atC_out (c : Dev nD) (t : Fin cfg0.N) (hc0 : ¬cond0_0 (grid0.coords t)) (hc1 : cond0_1 (grid0.coords t)) (xs0 : Vec F S512x512 .f32) :
    (atC m c t hc0 hc1 xs0).1 = k0_pay3 (k0_pay2 xs0 (iblk m c 2 t) (iblk m c 3 t)) (iblk m c 7 t) := by
  unfold atC; dsimp only
  exact out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) xs0

end Cert.KernelIdeal.Hand

end
-- ==== Proof.KI.Payloads.lean ====
import proofs.«143047_j60146722013580_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! # The body's three stored values, read at an index of the 512 × 512 tile, on the extended reals

A change of float format is the identity there, and a matrix product into a zero accumulator is the plain sum over the
contracted axis. -/

/-! ## The product of two `512 × 128` tiles over their second axes, index by index -/

theorem lhs_in_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem lhs_in_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem rhs_in_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem rhs_in_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- Into a zero accumulator the product at `(p, q)` is the sum over the shared second axis of row `p` of the left
    tile against row `q` of the right one. -/
theorem matmul_in_apply {φ₁ φ₂ : FTy} (a : FVec Ideal S512x128 φ₁) (b : FVec Ideal S512x128 φ₂) (p q : Fin 512) :
    (matmul (F := Ideal) dot_S512x128_S512x128_S512x512_1_1_0_0_n_n none a b (constant (F := Ideal) S512x512 .f32 0x00000000#32) (ix2 p q) : EReal)
      = ∑ k : Fin 128, (a (ix2 p k) : EReal) * (b (ix2 q k) : EReal) := by
  refine (Ideal.matmul_constant_zero_apply dot_S512x128_S512x128_S512x512_1_1_0_0_n_n none a b (ix2 p q)).trans ?_
  rw [← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx (ix2 p q) ((ValueIdx.contrEquiv1 dot_S512x128_S512x128_S512x512_1_1_0_0_n_n 128 rfl rfl).symm k) = ix2 p k := funext fun a => Fin.ext (by
    match a with
    | ⟨0, _⟩ => exact lhs_in_0 _ _
    | ⟨1, _⟩ => exact (lhs_in_1 _ _).trans hk)
  have er : dot_S512x128_S512x128_S512x512_1_1_0_0_n_n.rhsIdx (ix2 p q) ((ValueIdx.contrEquiv1 dot_S512x128_S512x128_S512x512_1_1_0_0_n_n 128 rfl rfl).symm k) = ix2 q k := funext fun a => Fin.ext (by
    match a with
    | ⟨0, _⟩ => exact rhs_in_0 _ _
    | ⟨1, _⟩ => exact (rhs_in_1 _ _).trans hk)
  rw [el, er]

/-! ## The product of two `512 × 64` tiles over their second axes, index by index -/

theorem lhs_out_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem lhs_out_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem rhs_out_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem rhs_out_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- Into a zero accumulator the product at `(p, q)` is the sum over the shared second axis of row `p` of the left
    tile against row `q` of the right one. -/
theorem matmul_out_apply {φ₁ φ₂ : FTy} (a : FVec Ideal S512x64 φ₁) (b : FVec Ideal S512x64 φ₂) (p q : Fin 512) :
    (matmul (F := Ideal) dot_S512x64_S512x64_S512x512_1_1_0_0_n_n none a b (constant (F := Ideal) S512x512 .f32 0x00000000#32) (ix2 p q) : EReal)
      = ∑ k : Fin 64, (a (ix2 p k) : EReal) * (b (ix2 q k) : EReal) := by
  refine (Ideal.matmul_constant_zero_apply dot_S512x64_S512x64_S512x512_1_1_0_0_n_n none a b (ix2 p q)).trans ?_
  rw [← Equiv.sum_comp (ValueIdx.contrEquiv1 dot_S512x64_S512x64_S512x512_1_1_0_0_n_n 64 rfl rfl).symm]
  refine Finset.sum_congr rfl fun k _ => ?_
  have hk := ValueIdx.contrEquiv1_symm_val dot_S512x64_S512x64_S512x512_1_1_0_0_n_n 64 rfl rfl k
  have el : dot_S512x64_S512x64_S512x512_1_1_0_0_n_n.lhsIdx (ix2 p q) ((ValueIdx.contrEquiv1 dot_S512x64_S512x64_S512x512_1_1_0_0_n_n 64 rfl rfl).symm k) = ix2 p k := funext fun a => Fin.ext (by
    match a with
    | ⟨0, _⟩ => exact lhs_out_0 _ _
    | ⟨1, _⟩ => exact (lhs_out_1 _ _).trans hk)
  have er : dot_S512x64_S512x64_S512x512_1_1_0_0_n_n.rhsIdx (ix2 p q) ((ValueIdx.contrEquiv1 dot_S512x64_S512x64_S512x512_1_1_0_0_n_n 64 rfl rfl).symm k) = ix2 q k := funext fun a => Fin.ext (by
    match a with
    | ⟨0, _⟩ => exact rhs_out_0 _ _
    | ⟨1, _⟩ => exact (rhs_out_1 _ _).trans hk)
  rw [el, er]

/-! ## The product of two `512 × 1024` tiles over their second axes, index by index -/

theorem lhs_res_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_res_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_res_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_res_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Into a zero accumulator the product at `(p, q)` is the sum over the shared second axis of row `p` of the left
    tile against row `q` of the right one. -/
theorem matmul_res_apply {φ₁ φ₂ : FTy} (a : FVec Ideal S512x1024 φ₁) (b : FVec Ideal S512x1024 φ₂) (p q : Fin 512) :
    (matmul (F := Ideal) dot_S512x1024_S512x1024_S512x512_1_1_0_0_n_n none a b (constant (F := Ideal) S512x512 .f32 0x00000000#32) (ix2 p q) : EReal)
      = ∑ k : Fin 1024, (a (ix2 p k) : EReal) * (b (ix2 q k) : EReal) := by
  refine (Ideal.matmul_constant_zero_apply dot_S512x1024_S512x1024_S512x512_1_1_0_0_n_n none a b (ix2 p q)).trans ?_
  rw [← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun a => Fin.ext (by
    match a with
    | ⟨0, _⟩ => exact lhs_res_0 _ _
    | ⟨1, _⟩ => exact (lhs_res_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun a => Fin.ext (by
    match a with
    | ⟨0, _⟩ => exact rhs_res_0 _ _
    | ⟨1, _⟩ => exact (rhs_res_1 _ _).trans hk)
  rw [el, er]

/-- The accumulator's reset value at `(p, q)`: the bias of unit `q`, plus the input drive (row `p` of the input tile
    against row `q` of the input weights' tile), plus the output feedback (row `p` of the fed-back output's tile
    against row `q` of the output weights' tile), added in this order. -/
theorem pay1_apply (v16 : Vec Ideal S1x512 .f32) (v20 v22 : Vec Ideal S512x128 .f32) (v25 v28 : Vec Ideal S512x64 .f32) (p q : Fin 512) :
    (k0_pay1 (F := Ideal) v16 v20 v22 v25 v28 (ix2 p q) : EReal)
      = ((v16 (ix2 (0 : Fin 1) q) : EReal) + ∑ a : Fin 128, (v20 (ix2 p a) : EReal) * (v22 (ix2 q a) : EReal))
          + ∑ b : Fin 64, (v25 (ix2 p b) : EReal) * (v28 (ix2 q b) : EReal) := by
  unfold k0_pay1
  simp only [shapeCast_self]
  refine (addf_apply _ _ _).trans ?_
  refine congrArg₂ (fun s t : EReal => s + t) ?_ (matmul_out_apply _ _ p q)
  refine (addf_apply _ _ _).trans ?_
  refine congrArg₂ (fun s t : EReal => s + t) ?_ (matmul_in_apply _ _ p q)
  exact broadcastTo_1b_ab_apply v16 broadcasts_S1x512_S512x512 p q

/-- One accumulation step at `(p, q)`: what the accumulator held, plus row `p` of the state's tile against row `q` of
    the recurrent weights' tile. -/
theorem pay2_apply (v3 : Vec Ideal S512x512 .f32) (v4 v6 : Vec Ideal S512x1024 .f32) (p q : Fin 512) :
    (k0_pay2 (F := Ideal) v3 v4 v6 (ix2 p q) : EReal)
      = (v3 (ix2 p q) : EReal) + ∑ cc : Fin 1024, (v4 (ix2 p cc) : EReal) * (v6 (ix2 q cc) : EReal) := by
  unfold k0_pay2
  simp only [shapeCast_self]
  refine (addf_apply _ _ _).trans ?_
  exact congrArg (fun t => (v3 (ix2 p q) : EReal) + t) (matmul_res_apply _ _ p q)

/-- The stored result at `(p, q)`: the leak weight times the old state plus the complementary weight times the
    hyperbolic tangent of the accumulator. -/
theorem pay3_apply (v16 v17 : Vec Ideal S512x512 .f32) (p q : Fin 512) :
    (k0_pay3 (F := Ideal) v16 v17 (ix2 p q) : EReal)
      = Ideal.ofBits .f32 0x3DCCCCCD#32 * (v17 (ix2 p q) : EReal)
          + Ideal.ofBits .f32 0x3F666666#32 * Ideal.tanh (v16 (ix2 p q) : EReal) := by
  unfold k0_pay3
  rfl

end Cert.KernelIdeal.Hand

end
-- ==== Proof.KI.Blocks.lean ====
import proofs.«143047_j60146722013580_1_alg».proof.Proof.KI.Shared
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! # What the kernel's windows hold, in terms of the program's arguments (on the extended reals)

Grid point `t` is batch tile `t / 32`, unit tile `(t / 4) % 8`, reduction tile `t % 4`. A block's element sits at
block index × block size + its coordinate inside the block. Two windowed arrays are computed by the host operations
before the kernel: the teacher-forced output transposed, and the bias column read as a row. -/

variable (m : (ℓ : Loc nD τ sig) → Buf (Elt Ideal) ℓ)

/-- The teacher-forced output as one function of the two candidate outputs, the probability and the random draw: the
    host operations the program applies, in their order. It is never opened: the reference applies the same. -/
def kToUse (a1 a2 : (⟨S64x1024, .f32⟩ : BufTy).Contents (Elt Ideal)) (a4 a5 : (⟨S1, .f32⟩ : BufTy).Contents (Elt Ideal)) : (⟨S64x1024, .f32⟩ : BufTy).Contents (Elt Ideal) :=
  select (broadcastInDim S64x1024 ![] bcast_S_S64x1024 (cmpf (F := Ideal) (φ := .f32) .olt (shapeCast _ (a5) shapeCasts_S1_S_) (shapeCast _ (a4) shapeCasts_S1_S_))) (addf (F := Ideal) (mulf (F := Ideal) (a1) (broadcastInDim S64x1024 ![] bcast_S_S64x1024 (constant (F := Ideal) S_ .f32 0x3F800000#32))) (broadcastInDim S64x1024 ![] bcast_S_S64x1024 (constant (F := Ideal) S_ .f32 0x00000000#32))) (addf (F := Ideal) (mulf (F := Ideal) (a2) (broadcastInDim S64x1024 ![] bcast_S_S64x1024 (constant (F := Ideal) S_ .f32 0x3F800000#32))) (broadcastInDim S64x1024 ![] bcast_S_S64x1024 (constant (F := Ideal) S_ .f32 0x00000000#32)))

/-- The transposed teacher-forced output, as the kernel finds it. -/
theorem V_v12_apply (c : Dev nD) (r : Fin 1024) (b : Fin 64) :
    (V m c main_v12 (ix2 r b) : EReal)
      = kToUse (m ((c.tc : Thread nD τ).loc main_arg1)) (m ((c.tc : Thread nD τ).loc main_arg2)) (m ((c.tc : Thread nD τ).loc main_arg4)) (m ((c.tc : Thread nD τ).loc main_arg5)) (ix2 b r) := by
  have e : (V m c main_v12 : S1024x64.Idx → EReal)
      = transpose S1024x64 [1, 0] (kToUse (m ((c.tc : Thread nD τ).loc main_arg1)) (m ((c.tc : Thread nD τ).loc main_arg2)) (m ((c.tc : Thread nD τ).loc main_arg4)) (m ((c.tc : Thread nD τ).loc main_arg5))) transposes_S64x1024_S1024x64_1_0 := by
    dsimp only [V, V0]
    simp only [hostOps0, hostOps0_1, hostOps0_2, List.flatten_cons, List.flatten_nil, List.append_nil, List.cons_append, List.nil_append]
    after_results_simp
    rfl
  rw [e]
  exact transpose_ix2_apply _ _ r b

/-- The bias row, as the kernel finds it: the bias column's entries. -/
theorem V_v13_apply (c : Dev nD) (j : Fin 4096) :
    (V m c main_v13 (ix2 (0 : Fin 1) j) : EReal) = (m ((c.tc : Thread nD τ).loc main_arg9)) (ix2 j (0 : Fin 1)) := by
  have e : (V m c main_v13 : S1x4096.Idx → EReal) = shapeCast S1x4096 (m ((c.tc : Thread nD τ).loc main_arg9)) shapeCasts_S4096x1_S1x4096 := by
    dsimp only [V, V0]
    simp only [hostOps0, hostOps0_1, hostOps0_2, List.flatten_cons, List.flatten_nil, List.append_nil, List.cons_append, List.nil_append]
    after_results
    rfl
  rw [e]
  refine shapeCast_apply (s := S4096x1) (t := S1x4096) _ shapeCasts_S4096x1_S1x4096 (ix2 (0 : Fin 1) j) (ix2 j (0 : Fin 1)) ?_
  rw [Shape.rowMajor_val_two, Shape.rowMajor_val_two]
  show j.val * 1 + 0 = 0 * 4096 + j.val
  omega

/-! ## The eight input blocks at a grid point, as vectors of their literal shapes -/

abbrev blk0 (c : Dev nD) (t : Fin cfg0.N) : Vec Ideal S512x128 .f32 := iblk m c 0 t
abbrev blk1 (c : Dev nD) (t : Fin cfg0.N) : Vec Ideal S512x128 .f32 := iblk m c 1 t
abbrev blk2 (c : Dev nD) (t : Fin cfg0.N) : Vec Ideal S512x1024 .f32 := iblk m c 2 t
abbrev blk3 (c : Dev nD) (t : Fin cfg0.N) : Vec Ideal S512x1024 .f32 := iblk m c 3 t
abbrev blk4 (c : Dev nD) (t : Fin cfg0.N) : Vec Ideal S512x64 .f32 := iblk m c 4 t
abbrev blk5 (c : Dev nD) (t : Fin cfg0.N) : Vec Ideal S512x64 .f32 := iblk m c 5 t
abbrev blk6 (c : Dev nD) (t : Fin cfg0.N) : Vec Ideal S1x512 .f32 := iblk m c 6 t
abbrev blk7 (c : Dev nD) (t : Fin cfg0.N) : Vec Ideal S512x512 .f32 := iblk m c 7 t

/-! ## The index maps over the grid -/

theorem idx_facts_0 : ∀ t : Fin cfg0.N, win0_0.index t (0 : Fin 2) = t.val / 32 ∧ win0_0.index t (1 : Fin 2) = 0 :=
  (by decide +kernel : ∀ t : Fin grid0.N, _)

theorem idx_facts_1 : ∀ t : Fin cfg0.N, win0_1.index t (0 : Fin 2) = (t.val / 4) % 8 ∧ win0_1.index t (1 : Fin 2) = 0 :=
  (by decide +kernel : ∀ t : Fin grid0.N, _)
theorem idx_facts_2 : ∀ t : Fin cfg0.N, win0_2.index t (0 : Fin 2) = t.val / 32 ∧ win0_2.index t (1 : Fin 2) = t.val % 4 :=
  (by decide +kernel : ∀ t : Fin grid0.N, _)
theorem idx_facts_3 : ∀ t : Fin cfg0.N, win0_3.index t (0 : Fin 2) = (t.val / 4) % 8 ∧ win0_3.index t (1 : Fin 2) = t.val % 4 :=
  (by decide +kernel : ∀ t : Fin grid0.N, _)
theorem idx_facts_4 : ∀ t : Fin cfg0.N, win0_4.index t (0 : Fin 2) = t.val / 32 ∧ win0_4.index t (1 : Fin 2) = 0 :=
  (by decide +kernel : ∀ t : Fin grid0.N, _)
theorem idx_facts_5 : ∀ t : Fin cfg0.N, win0_5.index t (0 : Fin 2) = (t.val / 4) % 8 ∧ win0_5.index t (1 : Fin 2) = 0 :=
  (by decide +kernel : ∀ t : Fin grid0.N, _)
theorem idx_facts_6 : ∀ t : Fin cfg0.N, win0_6.index t (0 : Fin 2) = 0 ∧ win0_6.index t (1 : Fin 2) = (t.val / 4) % 8 :=
  (by decide +kernel : ∀ t : Fin grid0.N, _)
theorem idx_facts_7 : ∀ t : Fin cfg0.N, win0_7.index t (0 : Fin 2) = t.val / 32 ∧ win0_7.index t (1 : Fin 2) = (t.val / 4) % 8 :=
  (by decide +kernel : ∀ t : Fin grid0.N, _)

/-- The input tile: rows of the batch tile. -/
theorem blk0_apply (c : Dev nD) (t : Fin cfg0.N) (ht : t.val < 64) (p : Fin 512) (a : Fin 128) :
    (blk0 m c t (ix2 p a) : EReal) = (m ((c.tc : Thread nD τ).loc main_arg0)) (ix2 (⟨512 * (t.val / 32) + p.val, by omega⟩ : Fin 1024) a) := by
  obtain ⟨e0, e1⟩ := idx_facts_0 t
  show V m c main_arg0 (((cfg0.win 0).blk t).view.emb (ix2 p a)) = _
  rw [V_main_arg0]
  refine congrArg (m ((c.tc : Thread nD τ).loc main_arg0)) (funext fun d => Fin.ext ?_)
  match d with
  | ⟨0, _⟩ => show win0_0.index t (0 : Fin 2) * 512 + 1 * p.val = 512 * (t.val / 32) + p.val; omega
  | ⟨1, _⟩ => show win0_0.index t (1 : Fin 2) * 128 + 1 * a.val = a.val; omega
/-- The input weights' tile: rows of the unit tile. -/
theorem blk1_apply (c : Dev nD) (t : Fin cfg0.N) (ht : t.val < 64) (q : Fin 512) (a : Fin 128) :
    (blk1 m c t (ix2 q a) : EReal) = (m ((c.tc : Thread nD τ).loc main_arg6)) (ix2 (⟨512 * ((t.val / 4) % 8) + q.val, by omega⟩ : Fin 4096) a) := by
  obtain ⟨e0, e1⟩ := idx_facts_1 t
  show V m c main_arg6 (((cfg0.win 1).blk t).view.emb (ix2 q a)) = _
  rw [V_main_arg6]
  refine congrArg (m ((c.tc : Thread nD τ).loc main_arg6)) (funext fun d => Fin.ext ?_)
  match d with
  | ⟨0, _⟩ => show win0_1.index t (0 : Fin 2) * 512 + 1 * q.val = 512 * ((t.val / 4) % 8) + q.val; omega
  | ⟨1, _⟩ => show win0_1.index t (1 : Fin 2) * 128 + 1 * a.val = a.val; omega
/-- The state's reduction tile: rows of the batch tile, columns of the reduction tile. -/
theorem blk2_apply (c : Dev nD) (t : Fin cfg0.N) (ht : t.val < 64) (p : Fin 512) (cc : Fin 1024) :
    (blk2 m c t (ix2 p cc) : EReal)
      = (m ((c.tc : Thread nD τ).loc main_arg3)) (ix2 (⟨512 * (t.val / 32) + p.val, by omega⟩ : Fin 1024) (⟨1024 * (t.val % 4) + cc.val, by omega⟩ : Fin 4096)) := by
  obtain ⟨e0, e1⟩ := idx_facts_2 t
  show V m c main_arg3 (((cfg0.win 2).blk t).view.emb (ix2 p cc)) = _
  rw [V_main_arg3]
  refine congrArg (m ((c.tc : Thread nD τ).loc main_arg3)) (funext fun d => Fin.ext ?_)
  match d with
  | ⟨0, _⟩ => show win0_2.index t (0 : Fin 2) * 512 + 1 * p.val = 512 * (t.val / 32) + p.val; omega
  | ⟨1, _⟩ => show win0_2.index t (1 : Fin 2) * 1024 + 1 * cc.val = 1024 * (t.val % 4) + cc.val; omega
/-- The recurrent weights' tile: rows of the unit tile, columns of the reduction tile. -/
theorem blk3_apply (c : Dev nD) (t : Fin cfg0.N) (ht : t.val < 64) (q : Fin 512) (cc : Fin 1024) :
    (blk3 m c t (ix2 q cc) : EReal)
      = (m ((c.tc : Thread nD τ).loc main_arg7)) (ix2 (⟨512 * ((t.val / 4) % 8) + q.val, by omega⟩ : Fin 4096) (⟨1024 * (t.val % 4) + cc.val, by omega⟩ : Fin 4096)) := by
  obtain ⟨e0, e1⟩ := idx_facts_3 t
  show V m c main_arg7 (((cfg0.win 3).blk t).view.emb (ix2 q cc)) = _
  rw [V_main_arg7]
  refine congrArg (m ((c.tc : Thread nD τ).loc main_arg7)) (funext fun d => Fin.ext ?_)
  match d with
  | ⟨0, _⟩ => show win0_3.index t (0 : Fin 2) * 512 + 1 * q.val = 512 * ((t.val / 4) % 8) + q.val; omega
  | ⟨1, _⟩ => show win0_3.index t (1 : Fin 2) * 1024 + 1 * cc.val = 1024 * (t.val % 4) + cc.val; omega
/-- The fed-back output's tile: rows of the batch tile, of the transposed teacher-forced output. -/
theorem blk4_apply (c : Dev nD) (t : Fin cfg0.N) (ht : t.val < 64) (p : Fin 512) (b : Fin 64) :
    (blk4 m c t (ix2 p b) : EReal)
      = kToUse (m ((c.tc : Thread nD τ).loc main_arg1)) (m ((c.tc : Thread nD τ).loc main_arg2)) (m ((c.tc : Thread nD τ).loc main_arg4)) (m ((c.tc : Thread nD τ).loc main_arg5)) (ix2 b (⟨512 * (t.val / 32) + p.val, by omega⟩ : Fin 1024)) := by
  obtain ⟨e0, e1⟩ := idx_facts_4 t
  have hi : (((cfg0.win 4).blk t).view.emb (ix2 p b) : S1024x64.Idx) = ix2 (⟨512 * (t.val / 32) + p.val, by omega⟩ : Fin 1024) b :=
    funext fun d => Fin.ext (by
      match d with
      | ⟨0, _⟩ => show win0_4.index t (0 : Fin 2) * 512 + 1 * p.val = 512 * (t.val / 32) + p.val; omega
      | ⟨1, _⟩ => show win0_4.index t (1 : Fin 2) * 64 + 1 * b.val = b.val; omega)
  exact (congrArg (V m c main_v12 : S1024x64.Idx → EReal) hi).trans (V_v12_apply m c _ b)
/-- The output weights' tile: rows of the unit tile. -/
theorem blk5_apply (c : Dev nD) (t : Fin cfg0.N) (ht : t.val < 64) (q : Fin 512) (b : Fin 64) :
    (blk5 m c t (ix2 q b) : EReal) = (m ((c.tc : Thread nD τ).loc main_arg8)) (ix2 (⟨512 * ((t.val / 4) % 8) + q.val, by omega⟩ : Fin 4096) b) := by
  obtain ⟨e0, e1⟩ := idx_facts_5 t
  show V m c main_arg8 (((cfg0.win 5).blk t).view.emb (ix2 q b)) = _
  rw [V_main_arg8]
  refine congrArg (m ((c.tc : Thread nD τ).loc main_arg8)) (funext fun d => Fin.ext ?_)
  match d with
  | ⟨0, _⟩ => show win0_5.index t (0 : Fin 2) * 512 + 1 * q.val = 512 * ((t.val / 4) % 8) + q.val; omega
  | ⟨1, _⟩ => show win0_5.index t (1 : Fin 2) * 64 + 1 * b.val = b.val; omega
/-- The bias tile: the unit tile's entries of the bias column. -/
theorem blk6_apply (c : Dev nD) (t : Fin cfg0.N) (ht : t.val < 64) (q : Fin 512) :
    (blk6 m c t (ix2 (0 : Fin 1) q) : EReal) = (m ((c.tc : Thread nD τ).loc main_arg9)) (ix2 (⟨512 * ((t.val / 4) % 8) + q.val, by omega⟩ : Fin 4096) (0 : Fin 1)) := by
  obtain ⟨e0, e1⟩ := idx_facts_6 t
  have hi : (((cfg0.win 6).blk t).view.emb (ix2 (0 : Fin 1) q) : S1x4096.Idx) = ix2 (0 : Fin 1) (⟨512 * ((t.val / 4) % 8) + q.val, by omega⟩ : Fin 4096) :=
    funext fun d => Fin.ext (by
      match d with
      | ⟨0, _⟩ => show win0_6.index t (0 : Fin 2) * 1 + 1 * 0 = 0; omega
      | ⟨1, _⟩ => show win0_6.index t (1 : Fin 2) * 512 + 1 * q.val = 512 * ((t.val / 4) % 8) + q.val; omega)
  exact (congrArg (V m c main_v13 : S1x4096.Idx → EReal) hi).trans (V_v13_apply m c _)
/-- The state's blend tile: rows of the batch tile, columns of the unit tile. -/
theorem blk7_apply (c : Dev nD) (t : Fin cfg0.N) (ht : t.val < 64) (p q : Fin 512) :
    (blk7 m c t (ix2 p q) : EReal)
      = (m ((c.tc : Thread nD τ).loc main_arg3)) (ix2 (⟨512 * (t.val / 32) + p.val, by omega⟩ : Fin 1024) (⟨512 * ((t.val / 4) % 8) + q.val, by omega⟩ : Fin 4096)) := by
  obtain ⟨e0, e1⟩ := idx_facts_7 t
  show V m c main_arg3 (((cfg0.win 7).blk t).view.emb (ix2 p q)) = _
  rw [V_main_arg3]
  refine congrArg (m ((c.tc : Thread nD τ).loc main_arg3)) (funext fun d => Fin.ext ?_)
  match d with
  | ⟨0, _⟩ => show win0_7.index t (0 : Fin 2) * 512 + 1 * p.val = 512 * (t.val / 32) + p.val; omega
  | ⟨1, _⟩ => show win0_7.index t (1 : Fin 2) * 512 + 1 * q.val = 512 * ((t.val / 4) % 8) + q.val; omega

end Cert.KernelIdeal.Hand

end
-- ==== Proof.Spec.lean ====
import Idealize.ShloMosaic.PureOps.Ideal
import Idealize.ShloMosaic.Lib.ValueIdx

noncomputable section

open scoped BigOperators

/-! # The reservoir update, index by index

For a batch row `i` and a reservoir unit `j` the new state is

    0.1 · x[i, j] + 0.9 · tanh (pre[i, j]),
    pre[i, j] = Σ_a passed[i, a] · W_in[j, a] + Σ_k x[i, k] · W_res[j, k] + Σ_b toUse[b, i] · W_out[j, b] + B_in[j, 0]

on the extended reals, the two weights the single-precision numbers nearest 0.1 and 0.9 (the same words in both
programs, never evaluated). `toUse` is the teacher-forced output, already selected. -/

namespace Cert.Spec

open Idealize.ShloMosaic Idealize.ShloMosaic.ValueIdx

abbrev A1024x128 : Shape := ⟨2, ![1024, 128]⟩
abbrev A64x1024 : Shape := ⟨2, ![64, 1024]⟩
abbrev A1024x4096 : Shape := ⟨2, ![1024, 4096]⟩
abbrev A4096x128 : Shape := ⟨2, ![4096, 128]⟩
abbrev A4096x4096 : Shape := ⟨2, ![4096, 4096]⟩
abbrev A4096x64 : Shape := ⟨2, ![4096, 64]⟩
abbrev A4096x1 : Shape := ⟨2, ![4096, 1]⟩

/-- The pre-activation of unit `j` on batch row `i`: input drive, recurrent drive, output feedback, bias, added in
    this order. -/
def pre (passed : A1024x128.Idx → EReal) (tu : A64x1024.Idx → EReal) (x : A1024x4096.Idx → EReal)
    (win : A4096x128.Idx → EReal) (wres : A4096x4096.Idx → EReal) (wout : A4096x64.Idx → EReal) (bin : A4096x1.Idx → EReal)
    (i : Fin 1024) (j : Fin 4096) : EReal :=
  (((∑ a : Fin 128, passed (ix2 i a) * win (ix2 j a)) + ∑ k : Fin 4096, x (ix2 i k) * wres (ix2 j k))
      + ∑ b : Fin 64, tu (ix2 b i) * wout (ix2 j b))
    + bin (ix2 j (0 : Fin 1))

/-- The new state at `(i, j)`. -/
def newStateAt (passed : A1024x128.Idx → EReal) (tu : A64x1024.Idx → EReal) (x : A1024x4096.Idx → EReal)
    (win : A4096x128.Idx → EReal) (wres : A4096x4096.Idx → EReal) (wout : A4096x64.Idx → EReal) (bin : A4096x1.Idx → EReal)
    (i : Fin 1024) (j : Fin 4096) : EReal :=
  Ideal.ofBits .f32 0x3DCCCCCD#32 * x (ix2 i j)
    + Ideal.ofBits .f32 0x3F666666#32 * Ideal.tanh (pre passed tu x win wres wout bin i j)

/-- The new state as an array. -/
def newState (passed : A1024x128.Idx → EReal) (tu : A64x1024.Idx → EReal) (x : A1024x4096.Idx → EReal)
    (win : A4096x128.Idx → EReal) (wres : A4096x4096.Idx → EReal) (wout : A4096x64.Idx → EReal) (bin : A4096x1.Idx → EReal) :
    A1024x4096.Idx → EReal :=
  fun ij => newStateAt passed tu x win wres wout bin (ij 0) (ij 1)

/-- The recurrent drive's slice over reduction tile `k` (columns `1024 k` to `1024 k + 1023`). -/
def resTile (x : A1024x4096.Idx → EReal) (wres : A4096x4096.Idx → EReal) (i : Fin 1024) (j : Fin 4096) (k : Fin 4) : EReal :=
  ∑ cc : Fin 1024, x (ix2 i (⟨1024 * k.val + cc.val, by omega⟩ : Fin 4096)) * wres (ix2 j (⟨1024 * k.val + cc.val, by omega⟩ : Fin 4096))

/-- The pre-activation in the order a tiled accumulation builds it: bias, input drive, output feedback, then the four
    reduction tiles of the recurrent drive one after the other. -/
def preTiled (passed : A1024x128.Idx → EReal) (tu : A64x1024.Idx → EReal) (x : A1024x4096.Idx → EReal)
    (win : A4096x128.Idx → EReal) (wres : A4096x4096.Idx → EReal) (wout : A4096x64.Idx → EReal) (bin : A4096x1.Idx → EReal)
    (i : Fin 1024) (j : Fin 4096) : EReal :=
  ((((((bin (ix2 j (0 : Fin 1)) + ∑ a : Fin 128, passed (ix2 i a) * win (ix2 j a))
      + ∑ b : Fin 64, tu (ix2 b i) * wout (ix2 j b))
      + resTile x wres i j 0) + resTile x wres i j 1) + resTile x wres i j 2) + resTile x wres i j 3)

end Cert.Spec

end
-- ==== Proof.SpecTiled.lean ====
import proofs.«143047_j60146722013580_1_alg».proof.Proof.Spec
import Mathlib.Algebra.BigOperators.Fin
import Mathlib.Algebra.BigOperators.Group.Finset.Defs
import Mathlib.Data.Fintype.BigOperators
import Mathlib.Logic.Equiv.Fin.Basic
import Mathlib.Data.EReal.Basic
import Mathlib.Tactic.Abel

noncomputable section

open scoped BigOperators

/-! # The tiled pre-activation is the pre-activation

The extended reals are a commutative additive monoid, so a sum over `Fin 4096` may be cut into four consecutive blocks
of 1024 terms, and seven summands may be regrouped freely. Nothing else is used: no distributivity, no finiteness. -/

namespace Cert.Spec

open Idealize.ShloMosaic Idealize.ShloMosaic.ValueIdx

/-- A sum over `Fin (m * n)` is the sum over the `m` consecutive blocks of `n` terms, in any commutative additive
    monoid: the term of block `t` at offset `c` is the one at position `n * t + c`. -/
theorem sum_blocks {M : Type*} [AddCommMonoid M] (m n : ℕ) (f : Fin (m * n) → M) :
    ∑ k : Fin (m * n), f k = ∑ t : Fin m, ∑ c : Fin n, f (finProdFinEquiv (t, c)) := by
  rw [← (finProdFinEquiv (m := m) (n := n)).sum_comp f, Fintype.sum_prod_type]

/-- The case of four blocks of 1024 terms, with the position written out. -/
theorem sum_four_tiles {M : Type*} [AddCommMonoid M] (f : Fin 4096 → M) :
    ∑ k : Fin 4096, f k
      = ∑ t : Fin 4, ∑ c : Fin 1024, f (⟨1024 * t.val + c.val, by omega⟩ : Fin 4096) := by
  have h := sum_blocks (M := M) 4 1024 f
  rw [h]
  refine Finset.sum_congr rfl (fun t _ => Finset.sum_congr rfl (fun c _ => ?_))
  congr 1
  apply Fin.ext
  show c.val + 1024 * t.val = 1024 * t.val + c.val
  omega

/-- The recurrent drive is the sum of its four reduction tiles. -/
theorem res_eq_tiles (x : A1024x4096.Idx → EReal) (wres : A4096x4096.Idx → EReal) (i : Fin 1024) (j : Fin 4096) :
    ∑ k : Fin 4096, x (ix2 i k) * wres (ix2 j k)
      = ((resTile x wres i j 0 + resTile x wres i j 1) + resTile x wres i j 2) + resTile x wres i j 3 := by
  rw [sum_four_tiles (fun k : Fin 4096 => x (ix2 i k) * wres (ix2 j k)), Fin.sum_univ_four]
  rfl

/-- The tiled accumulation order gives the pre-activation. -/
theorem preTiled_eq (passed : A1024x128.Idx → EReal) (tu : A64x1024.Idx → EReal) (x : A1024x4096.Idx → EReal)
    (win : A4096x128.Idx → EReal) (wres : A4096x4096.Idx → EReal) (wout : A4096x64.Idx → EReal) (bin : A4096x1.Idx → EReal)
    (i : Fin 1024) (j : Fin 4096) :
    preTiled passed tu x win wres wout bin i j = pre passed tu x win wres wout bin i j := by
  unfold preTiled pre
  rw [res_eq_tiles x wres i j]
  abel

end Cert.Spec

end
-- ==== Proof.KI.Value.lean ====
import proofs.«143047_j60146722013580_1_alg».proof.Proof.KI.Pieces
import proofs.«143047_j60146722013580_1_alg».proof.Proof.KI.Payloads
import proofs.«143047_j60146722013580_1_alg».proof.Proof.KI.Blocks
import proofs.«143047_j60146722013580_1_alg».proof.Proof.SpecTiled

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! # The kernel's result, index by index

At a grid point `t` = (batch tile `t / 32`, unit tile `(t / 4) % 8`, reduction tile `t % 4`) the accumulator holds,
at `(p, q)` of its 512 × 512 tile, the partial pre-activation of unit `512 · ((t / 4) % 8) + q` on batch row
`512 · (t / 32) + p`: after reduction tile 0 the bias, the input drive, the output feedback and the first slice of the
recurrent drive; each later tile adds its slice. After tile 3 it is the pre-activation in the tiled order, the stored
block is the new state there, and the sixteen stored blocks tile the result array. -/

variable (m : (ℓ : Loc nD τ sig) → Buf (Elt Ideal) ℓ) (ρ : Dev nD → PrngReg)

/-- The program's arguments on core `c`, as the specification's arrays. -/
abbrev aP (c : Dev nD) : Cert.Spec.A1024x128.Idx → EReal := (m ((c.tc : Thread nD τ).loc main_arg0))
abbrev aTU (c : Dev nD) : Cert.Spec.A64x1024.Idx → EReal := kToUse (m ((c.tc : Thread nD τ).loc main_arg1)) (m ((c.tc : Thread nD τ).loc main_arg2)) (m ((c.tc : Thread nD τ).loc main_arg4)) (m ((c.tc : Thread nD τ).loc main_arg5))
abbrev aX (c : Dev nD) : Cert.Spec.A1024x4096.Idx → EReal := (m ((c.tc : Thread nD τ).loc main_arg3))
abbrev aWin (c : Dev nD) : Cert.Spec.A4096x128.Idx → EReal := (m ((c.tc : Thread nD τ).loc main_arg6))
abbrev aWres (c : Dev nD) : Cert.Spec.A4096x4096.Idx → EReal := (m ((c.tc : Thread nD τ).loc main_arg7))
abbrev aWout (c : Dev nD) : Cert.Spec.A4096x64.Idx → EReal := (m ((c.tc : Thread nD τ).loc main_arg8))
abbrev aBin (c : Dev nD) : Cert.Spec.A4096x1.Idx → EReal := (m ((c.tc : Thread nD τ).loc main_arg9))

theorem tlt (t : Fin cfg0.N) : t.val < 64 := lt_of_lt_of_eq t.isLt N_0

/-- The batch row, the unit and the reduction tile a point's tile coordinates stand for. -/
def rowOf (t : Fin cfg0.N) (ht : t.val < 64) (p : Fin 512) : Fin 1024 := ⟨512 * (t.val / 32) + p.val, by omega⟩
def colOf (t : Fin cfg0.N) (ht : t.val < 64) (q : Fin 512) : Fin 4096 := ⟨512 * ((t.val / 4) % 8) + q.val, by omega⟩
def redOf (t : Fin cfg0.N) : Fin 4 := ⟨t.val % 4, Nat.mod_lt _ (by decide)⟩

/-- The partial product of a point's two reduction tiles is the recurrent drive's slice over that reduction tile. -/
theorem red_eq (c : Dev nD) (t : Fin cfg0.N) (ht : t.val < 64) (p q : Fin 512) :
    ∑ cc : Fin 1024, (blk2 m c t (ix2 p cc) : EReal) * (blk3 m c t (ix2 q cc) : EReal)
      = Cert.Spec.resTile (aX m c) (aWres m c) (rowOf t ht p) (colOf t ht q) (redOf t) := by
  unfold Cert.Spec.resTile
  refine Finset.sum_congr rfl fun cc _ => ?_
  rw [blk2_apply m c t ht p cc, blk3_apply m c t ht q cc]
  rfl

/-- The reset value over a point's blocks: bias, input drive, output feedback of the point's row and unit. -/
theorem base_eq (c : Dev nD) (t : Fin cfg0.N) (ht : t.val < 64) (p q : Fin 512) :
    ((blk6 m c t (ix2 (0 : Fin 1) q) : EReal) + ∑ a : Fin 128, (blk0 m c t (ix2 p a) : EReal) * (blk1 m c t (ix2 q a) : EReal))
        + ∑ b : Fin 64, (blk4 m c t (ix2 p b) : EReal) * (blk5 m c t (ix2 q b) : EReal)
      = (aBin m c (ix2 (colOf t ht q) (0 : Fin 1)) + ∑ a : Fin 128, aP m c (ix2 (rowOf t ht p) a) * aWin m c (ix2 (colOf t ht q) a))
          + ∑ b : Fin 64, aTU m c (ix2 b (rowOf t ht p)) * aWout m c (ix2 (colOf t ht q) b) := by
  refine congrArg₂ (· + ·) (congrArg₂ (· + ·) ?_ ?_) ?_
  · exact blk6_apply m c t ht q
  · refine Finset.sum_congr rfl fun a _ => ?_
    rw [blk0_apply m c t ht p a, blk1_apply m c t ht q a]; rfl
  · refine Finset.sum_congr rfl fun b _ => ?_
    rw [blk4_apply m c t ht p b, blk5_apply m c t ht q b]; rfl

/-- After a first reduction step. -/
theorem acc_first (c : Dev nD) (t : Fin cfg0.N) (h0 : t.val % 4 = 0) (p q : Fin 512) :
    ((outsAt0 m c t.val t.isLt).2 (ix2 p q) : EReal)
      = ((aBin m c (ix2 (colOf t (tlt t) q) (0 : Fin 1)) + ∑ a : Fin 128, aP m c (ix2 (rowOf t (tlt t) p) a) * aWin m c (ix2 (colOf t (tlt t) q) a))
            + ∑ b : Fin 64, aTU m c (ix2 b (rowOf t (tlt t) p)) * aWout m c (ix2 (colOf t (tlt t) q) b))
          + Cert.Spec.resTile (aX m c) (aWres m c) (rowOf t (tlt t) p) (colOf t (tlt t) q) (redOf t) := by
  have h1 : ¬ t.val % 4 = 3 := by omega
  rw [outsAt0_A m c t h0 h1, atA_acc]
  refine (pay2_apply (k0_pay1 (blk6 m c t) (blk0 m c t) (blk1 m c t) (blk4 m c t) (blk5 m c t)) (blk2 m c t) (blk3 m c t) p q).trans ?_
  refine congrArg₂ (· + ·) ?_ (red_eq m c t (tlt t) p q)
  exact (pay1_apply (blk6 m c t) (blk0 m c t) (blk1 m c t) (blk4 m c t) (blk5 m c t) p q).trans (base_eq m c t (tlt t) p q)

/-- After any later reduction step: what the step before left, plus this step's slice. -/
theorem acc_next (c : Dev nD) (s t : Fin cfg0.N) (hst : t.val = s.val + 1) (h0 : ¬ t.val % 4 = 0) (p q : Fin 512) :
    ((outsAt0 m c t.val t.isLt).2 (ix2 p q) : EReal)
      = ((outsAt0 m c s.val s.isLt).2 (ix2 p q) : EReal)
          + Cert.Spec.resTile (aX m c) (aWres m c) (rowOf t (tlt t) p) (colOf t (tlt t) q) (redOf t) := by
  have hs : outsAt0 m c (t.val - 1) (Nat.lt_of_le_of_lt (Nat.sub_le _ _) t.isLt) = outsAt0 m c s.val s.isLt := by
    have e : t.val - 1 = s.val := by omega
    congr 1
  by_cases h1 : t.val % 4 = 3
  · rw [outsAt0_C m c t h0 h1, atC_acc, hs]
    exact (pay2_apply (outsAt0 m c s.val s.isLt).2 (blk2 m c t) (blk3 m c t) p q).trans (congrArg₂ (· + ·) rfl (red_eq m c t (tlt t) p q))
  · rw [outsAt0_B m c t h0 h1, atB_acc, hs]
    exact (pay2_apply (outsAt0 m c s.val s.isLt).2 (blk2 m c t) (blk3 m c t) p q).trans (congrArg₂ (· + ·) rfl (red_eq m c t (tlt t) p q))

/-- After the last reduction step the accumulator is the pre-activation, in the tiled order. -/
theorem acc_last (c : Dev nD) (n : ℕ) (hn : n + 3 < cfg0.N) (h0 : n % 4 = 0) (p q : Fin 512) :
    ((outsAt0 m c (n + 3) hn).2 (ix2 p q) : EReal)
      = Cert.Spec.preTiled (aP m c) (aTU m c) (aX m c) (aWin m c) (aWres m c) (aWout m c) (aBin m c) (rowOf ⟨n + 3, hn⟩ (tlt _) p) (colOf ⟨n + 3, hn⟩ (tlt _) q) := by
  have hN : n + 3 < 64 := tlt ⟨n + 3, hn⟩
  have hn0 : n < cfg0.N := by omega
  have hn1 : n + 1 < cfg0.N := by omega
  have hn2 : n + 2 < cfg0.N := by omega
  have e3 : ((outsAt0 m c (n + 3) hn).2 (ix2 p q) : EReal) = ((outsAt0 m c (n + 2) hn2).2 (ix2 p q) : EReal)
      + Cert.Spec.resTile (aX m c) (aWres m c) (rowOf ⟨n + 3, hn⟩ (tlt _) p) (colOf ⟨n + 3, hn⟩ (tlt _) q) (redOf ⟨n + 3, hn⟩) :=
    acc_next m c ⟨n + 2, hn2⟩ ⟨n + 3, hn⟩ rfl (by show ¬ (n + 3) % 4 = 0; omega) p q
  have e2 : ((outsAt0 m c (n + 2) hn2).2 (ix2 p q) : EReal) = ((outsAt0 m c (n + 1) hn1).2 (ix2 p q) : EReal)
      + Cert.Spec.resTile (aX m c) (aWres m c) (rowOf ⟨n + 2, hn2⟩ (tlt _) p) (colOf ⟨n + 2, hn2⟩ (tlt _) q) (redOf ⟨n + 2, hn2⟩) :=
    acc_next m c ⟨n + 1, hn1⟩ ⟨n + 2, hn2⟩ rfl (by show ¬ (n + 2) % 4 = 0; omega) p q
  have e1 : ((outsAt0 m c (n + 1) hn1).2 (ix2 p q) : EReal) = ((outsAt0 m c n hn0).2 (ix2 p q) : EReal)
      + Cert.Spec.resTile (aX m c) (aWres m c) (rowOf ⟨n + 1, hn1⟩ (tlt _) p) (colOf ⟨n + 1, hn1⟩ (tlt _) q) (redOf ⟨n + 1, hn1⟩) :=
    acc_next m c ⟨n, hn0⟩ ⟨n + 1, hn1⟩ rfl (by show ¬ (n + 1) % 4 = 0; omega) p q
  have e0 := acc_first m c ⟨n, hn0⟩ h0 p q
  have r2 : rowOf ⟨n + 2, hn2⟩ (tlt _) p = rowOf ⟨n + 3, hn⟩ (tlt _) p := Fin.ext (by show 512 * ((n + 2) / 32) + p.val = 512 * ((n + 3) / 32) + p.val; omega)
  have r1 : rowOf ⟨n + 1, hn1⟩ (tlt _) p = rowOf ⟨n + 3, hn⟩ (tlt _) p := Fin.ext (by show 512 * ((n + 1) / 32) + p.val = 512 * ((n + 3) / 32) + p.val; omega)
  have r0 : rowOf ⟨n, hn0⟩ (tlt _) p = rowOf ⟨n + 3, hn⟩ (tlt _) p := Fin.ext (by show 512 * (n / 32) + p.val = 512 * ((n + 3) / 32) + p.val; omega)
  have c2 : colOf ⟨n + 2, hn2⟩ (tlt _) q = colOf ⟨n + 3, hn⟩ (tlt _) q := Fin.ext (by show 512 * (((n + 2) / 4) % 8) + q.val = 512 * (((n + 3) / 4) % 8) + q.val; omega)
  have c1 : colOf ⟨n + 1, hn1⟩ (tlt _) q = colOf ⟨n + 3, hn⟩ (tlt _) q := Fin.ext (by show 512 * (((n + 1) / 4) % 8) + q.val = 512 * (((n + 3) / 4) % 8) + q.val; omega)
  have c0 : colOf ⟨n, hn0⟩ (tlt _) q = colOf ⟨n + 3, hn⟩ (tlt _) q := Fin.ext (by show 512 * ((n / 4) % 8) + q.val = 512 * (((n + 3) / 4) % 8) + q.val; omega)
  have k3 : redOf ⟨n + 3, hn⟩ = (3 : Fin 4) := Fin.ext (by show (n + 3) % 4 = 3; omega)
  have k2 : redOf ⟨n + 2, hn2⟩ = (2 : Fin 4) := Fin.ext (by show (n + 2) % 4 = 2; omega)
  have k1 : redOf ⟨n + 1, hn1⟩ = (1 : Fin 4) := Fin.ext (by show (n + 1) % 4 = 1; omega)
  have k0 : redOf ⟨n, hn0⟩ = (0 : Fin 4) := Fin.ext (by show n % 4 = 0; omega)
  rw [e3, e2, e1, e0, r2, r1, r0, c2, c1, c0, k3, k2, k1, k0]
  rfl

/-- What the last step stores: the new state of the point's row and unit. -/
theorem out_last (c : Dev nD) (n : ℕ) (hn : n + 3 < cfg0.N) (h0 : n % 4 = 0) (p q : Fin 512) :
    ((outsAt0 m c (n + 3) hn).1 (ix2 p q) : EReal)
      = Cert.Spec.newStateAt (aP m c) (aTU m c) (aX m c) (aWin m c) (aWres m c) (aWout m c) (aBin m c) (rowOf ⟨n + 3, hn⟩ (tlt _) p) (colOf ⟨n + 3, hn⟩ (tlt _) q) := by
  have h3 : (⟨n + 3, hn⟩ : Fin cfg0.N).val % 4 = 3 := by show (n + 3) % 4 = 3; omega
  have h0' : ¬ (⟨n + 3, hn⟩ : Fin cfg0.N).val % 4 = 0 := by show ¬ (n + 3) % 4 = 0; omega
  have hacc := acc_last m c n hn h0 p q
  rw [outsAt0_C m c ⟨n + 3, hn⟩ h0' h3] at hacc ⊢
  rw [atC_out]
  rw [atC_acc] at hacc
  refine (pay3_apply _ (blk7 m c ⟨n + 3, hn⟩) p q).trans ?_
  rw [hacc, blk7_apply m c ⟨n + 3, hn⟩ (tlt _) p q]
  unfold Cert.Spec.newStateAt
  rw [Cert.Spec.preTiled_eq]
  rfl

/-- The same at any index of the tile. -/
theorem out_last_idx (c : Dev nD) (n : ℕ) (hn : n + 3 < cfg0.N) (h0 : n % 4 = 0) (j : S512x512.Idx) :
    ((outsAt0 m c (n + 3) hn).1 j : EReal)
      = Cert.Spec.newStateAt (aP m c) (aTU m c) (aX m c) (aWin m c) (aWres m c) (aWout m c) (aBin m c) (rowOf ⟨n + 3, hn⟩ (tlt _) (j 0)) (colOf ⟨n + 3, hn⟩ (tlt _) (j 1)) := by
  obtain ⟨p, q, rfl⟩ : ∃ (p q : Fin 512), j = ix2 p q := ⟨j 0, j 1, eq_ix2 j⟩
  exact out_last m c n hn h0 p q

/-! ## From the stored blocks to the result array -/

/-- The result array the kernel ends with. -/
abbrev result (c : Dev nD) : Buf (Elt Ideal) ((c.tc : Thread nD τ).loc main_v14) :=
  Cert.Spec.newState (aP m c) (aTU m c) (aX m c) (aWin m c) (aWres m c) (aWout m c) (aBin m c)

/-- The output window's block index at a point: (batch tile, unit tile). -/
theorem idx_facts8 : ∀ t : Fin cfg0.N, win0_8.index t (0 : Fin 2) = t.val / 32 ∧ win0_8.index t (1 : Fin 2) = (t.val / 4) % 8 :=
  (by decide +kernel : ∀ t : Fin grid0.N, win0_8.index t (0 : Fin 2) = t.val / 32 ∧ win0_8.index t (1 : Fin 2) = (t.val / 4) % 8)

/-- Every (batch tile, unit tile) is some last reduction step's. -/
theorem idx_onto8 : ∀ (I : Fin 2) (J : Fin 8), ∃ t : Fin cfg0.N, t.val % 4 = 3 ∧ win0_8.index t (0 : Fin 2) = I.val ∧ win0_8.index t (1 : Fin 2) = J.val :=
  (by decide +kernel : ∀ (I : Fin 2) (J : Fin 8), ∃ t : Fin grid0.N, t.val % 4 = 3 ∧ win0_8.index t (0 : Fin 2) = I.val ∧ win0_8.index t (1 : Fin 2) = J.val)

/-- What a writing point writes back is its block of the result. -/
theorem flushed_eq (c : Dev nD) (t : Fin cfg0.N) (hf : (cfg0.win 8).flush t = true) :
    (dats m 0 c).flushed 8 t = ((cfg0.win 8).blk t).view.read (Elt Ideal) (result m c) := by
  have h3 : t.val % 4 = 3 := (flush0_8 t).mp hf
  obtain ⟨e0, e1⟩ := idx_facts8 t
  obtain ⟨n, hn, rfl⟩ : ∃ (n : ℕ) (hn : n + 3 < cfg0.N), t = ⟨n + 3, hn⟩ :=
    ⟨t.val - 3, by have := t.isLt; omega, Fin.ext (by show t.val = t.val - 3 + 3; omega)⟩
  have h0 : n % 4 = 0 := by have : (n + 3) % 4 = 3 := h3; omega
  show (cfg0.win 8).cut (grid0.coords ⟨n + 3, hn⟩) ((dats m 0 c).after 8 ⟨n + 3, hn⟩) = _
  rw [after0_8]
  funext j
  show ((outsAt0 m c (n + 3) hn).1 j : EReal) = result m c (((cfg0.win 8).blk ⟨n + 3, hn⟩).view.emb j)
  rw [out_last_idx m c n hn h0 j]
  show _ = Cert.Spec.newStateAt (aP m c) (aTU m c) (aX m c) (aWin m c) (aWres m c) (aWout m c) (aBin m c) ((((cfg0.win 8).blk ⟨n + 3, hn⟩).view.emb j) 0) ((((cfg0.win 8).blk ⟨n + 3, hn⟩).view.emb j) 1)
  congr 1
  · apply Fin.ext
    show 512 * ((n + 3) / 32) + (j 0).val = win0_8.index ⟨n + 3, hn⟩ (0 : Fin 2) * 512 + 1 * (j 0).val
    rw [e0]; show _ = (n + 3) / 32 * 512 + 1 * (j 0).val; omega
  · apply Fin.ext
    show 512 * (((n + 3) / 4) % 8) + (j 1).val = win0_8.index ⟨n + 3, hn⟩ (1 : Fin 2) * 512 + 1 * (j 1).val
    rw [e1]; show _ = ((n + 3) / 4) % 8 * 512 + 1 * (j 1).val; omega

/-- An index of the result array is in a point's block iff each coordinate is in the block's range on its axis. -/
theorem mem_blk8 (t : Fin cfg0.N) (i : S1024x4096.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v14).slice (win0_8.rect t)).set ↔ _
  rw [View.set_slice_whole, Rect.mem_set_unit]
  exact Iff.rfl

/-- Every index of the result array is in some writing point's block. -/
theorem cover8 (i : S1024x4096.Idx) : ∃ t : Fin cfg0.N, (cfg0.win 8).flush t = true ∧ i ∈ ((cfg0.win 8).blk t).view.set := by
  have hi0 : (i 0).val < 1024 := (i 0).isLt
  have hi1 : (i 1).val < 4096 := (i 1).isLt
  obtain ⟨t, ht3, q0, q1⟩ := idx_onto8 ⟨(i 0).val / 512, by omega⟩ ⟨(i 1).val / 512, by omega⟩
  refine ⟨t, (flush0_8 t).mpr ht3, ?_⟩
  rw [mem_blk8]
  intro a
  match a with
  | ⟨0, _⟩ => show win0_8.index t (0 : Fin 2) * 512 ≤ (i 0).val ∧ (i 0).val < win0_8.index t (0 : Fin 2) * 512 + 512
              rw [q0]; show (i 0).val / 512 * 512 ≤ (i 0).val ∧ (i 0).val < (i 0).val / 512 * 512 + 512; omega
  | ⟨1, _⟩ => show win0_8.index t (1 : Fin 2) * 512 ≤ (i 1).val ∧ (i 1).val < win0_8.index t (1 : Fin 2) * 512 + 512
              rw [q1]; show (i 1).val / 512 * 512 ≤ (i 1).val ∧ (i 1).val < (i 1).val / 512 * 512 + 512; omega

/-- So the result array ends holding the new state. -/
theorem final8 (c : Dev nD) : (dats m 0 c).arrAt 8 cfg0.N = result m c :=
  (dats m 0 c).arrAt_eq_of_cover 8 (result m c) (flushed_eq m c) (cover8)

/-- The run, read: the result array at the new state, the ten arguments unchanged. -/
theorem kernel_run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).1 8).trans (final8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats m 0 c).arrAt_in 1 rfl _).trans ((A_eq m c 1).trans (V_main_arg6 m c))),
      ((h c).1 3).trans (((dats m 0 c).arrAt_in 3 rfl _).trans ((A_eq m c 3).trans (V_main_arg7 m c))),
      ((h c).1 5).trans (((dats m 0 c).arrAt_in 5 rfl _).trans ((A_eq m c 5).trans (V_main_arg8 m c))),
      ((h c).2 main_arg9 (Pipeline.mem_restRefs_of main_arg9 (by decide) (by decide))).trans (V_main_arg9 m c)⟩)
    (run_main m ρ)

end Cert.KernelIdeal.Hand

end
-- ==== Proof.RefValue.lean ====
/-
  The reference program's value. Its host operations, composed, are the reservoir update of the specification
  index by index: three products against transposed weights are the three sums over the contracted axis with the
  weights read at [unit, contracted index], the reshaped and twice broadcast bias is the bias of the unit, and the
  two broadcast literals are the two weights. The teacher-forced output enters as one function of four arrays that
  is never opened.
-/
import proofs.«143047_j60146722013580_1_alg».proof.Proof.Gen.ReferenceIdeal.Read
import proofs.«143047_j60146722013580_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The teacher-forced output -/

/-- The teacher-forced output as a function of the last output `a1`, the last predicted output `a2`, the
    probability `a4` and the random number `a5`: where the random number is below the probability (an ordered
    comparison of the two scalars, each reshaped from its one-element array, broadcast over the array) the last
    output times one plus zero, elsewhere the last predicted output times one plus zero. -/
def refToUse (a1 a2 : (⟨S64x1024, .f32⟩ : BufTy).Contents (Elt Ideal)) (a4 a5 : (⟨S1, .f32⟩ : BufTy).Contents (Elt Ideal)) : (⟨S64x1024, .f32⟩ : BufTy).Contents (Elt Ideal) :=
  select (broadcastInDim S64x1024 ![] bcast_S_S64x1024 (cmpf (F := Ideal) (φ := .f32) .olt (shapeCast _ (a5) shapeCasts_S1_S_) (shapeCast _ (a4) shapeCasts_S1_S_))) (addf (F := Ideal) (mulf (F := Ideal) (a1) (broadcastInDim S64x1024 ![] bcast_S_S64x1024 (constant (F := Ideal) S_ .f32 0x3F800000#32))) (broadcastInDim S64x1024 ![] bcast_S_S64x1024 (constant (F := Ideal) S_ .f32 0x00000000#32))) (addf (F := Ideal) (mulf (F := Ideal) (a2) (broadcastInDim S64x1024 ![] bcast_S_S64x1024 (constant (F := Ideal) S_ .f32 0x3F800000#32))) (broadcastInDim S64x1024 ![] bcast_S_S64x1024 (constant (F := Ideal) S_ .f32 0x00000000#32)))

/-- The program's select stage is that function of the four arrays. -/
theorem toUse_stage (a1 a2 : (⟨S64x1024, .f32⟩ : BufTy).Contents (Elt Ideal)) (a4 a5 : (⟨S1, .f32⟩ : BufTy).Contents (Elt Ideal)) :
    val_main_v11 (F := Ideal) a1 a2 a4 a5 = refToUse a1 a2 a4 a5 := rfl

/-! ## The operands' indices by coordinates

Each product reads its left operand at [row, contracted index] and its transposed weight at
[contracted index, unit], which is the weight at [unit, contracted index]; the transposed teacher-forced output at
[row, contracted index] is the teacher-forced output at [contracted index, row]; the bias broadcast to
[row, unit] is the bias column at [unit, 0]. -/

theorem in_left (p : Fin 1024) (q : Fin 4096) (k : Fin 128) : lidx_main_v13 (ix2 p q) k = ix2 p k :=
  funext fun a => Fin.ext (by match a with | ⟨0, _⟩ => rfl | ⟨1, _⟩ => rfl)
theorem in_right (p : Fin 1024) (q : Fin 4096) (k : Fin 128) : idx_main_v12 (ridx_main_v13 (ix2 p q) k) = ix2 q k :=
  funext fun a => Fin.ext (by match a with | ⟨0, _⟩ => rfl | ⟨1, _⟩ => rfl)
theorem res_left (p : Fin 1024) (q : Fin 4096) (k : Fin 4096) : lidx_main_v15 (ix2 p q) k = ix2 p k :=
  funext fun a => Fin.ext (by match a with | ⟨0, _⟩ => rfl | ⟨1, _⟩ => rfl)
theorem res_right (p : Fin 1024) (q : Fin 4096) (k : Fin 4096) : idx_main_v14 (ridx_main_v15 (ix2 p q) k) = ix2 q k :=
  funext fun a => Fin.ext (by match a with | ⟨0, _⟩ => rfl | ⟨1, _⟩ => rfl)
theorem out_left (p : Fin 1024) (q : Fin 4096) (k : Fin 64) : idx_main_v17 (lidx_main_v19 (ix2 p q) k) = ix2 k p :=
  funext fun a => Fin.ext (by match a with | ⟨0, _⟩ => rfl | ⟨1, _⟩ => rfl)
theorem out_right (p : Fin 1024) (q : Fin 4096) (k : Fin 64) : idx_main_v18 (ridx_main_v19 (ix2 p q) k) = ix2 q k :=
  funext fun a => Fin.ext (by match a with | ⟨0, _⟩ => rfl | ⟨1, _⟩ => rfl)
theorem bias_at (p : Fin 1024) (q : Fin 4096) : idx_main_v21 (idx_main_v22 (idx_main_v23 (ix2 p q))) = ix2 q (0 : Fin 1) :=
  funext fun a => Fin.ext (by match a with | ⟨0, _⟩ => exact Nat.div_one _ | ⟨1, _⟩ => rfl)

/-! ## The result, index by index -/

/-- The last stage of the reference is the specification's new state of the arguments and the teacher-forced
    output. -/
theorem result_eq (x0 : (⟨S1024x128, .f32⟩ : BufTy).Contents (Elt Ideal)) (x1 x2 : (⟨S64x1024, .f32⟩ : BufTy).Contents (Elt Ideal)) (x3 : (⟨S1024x4096, .f32⟩ : BufTy).Contents (Elt Ideal)) (x4 x5 : (⟨S1, .f32⟩ : BufTy).Contents (Elt Ideal))
    (x6 : (⟨S4096x128, .f32⟩ : BufTy).Contents (Elt Ideal)) (x7 : (⟨S4096x4096, .f32⟩ : BufTy).Contents (Elt Ideal)) (x8 : (⟨S4096x64, .f32⟩ : BufTy).Contents (Elt Ideal)) (x9 : (⟨S4096x1, .f32⟩ : BufTy).Contents (Elt Ideal)) :
    val_main_v30 (F := Ideal) x0 x1 x2 x3 x4 x5 x6 x7 x8 x9
      = Cert.Spec.newState x0 (refToUse x1 x2 x4 x5) x3 x6 x7 x8 x9 := by
  funext ij
  obtain ⟨p, q, rfl⟩ : ∃ (p : Fin 1024) (q : Fin 4096), ij = ix2 p q := ⟨ij 0, ij 1, eq_ix2 ij⟩
  show _ = Cert.Spec.newStateAt x0 (refToUse x1 x2 x4 x5) x3 x6 x7 x8 x9 p q
  unfold Cert.Spec.newStateAt Cert.Spec.pre
  rw [val_main_v30_apply, val_main_v26_apply, val_main_v25_apply, val_main_cst_3_apply, val_main_v29_apply, val_main_v28_apply,
    val_main_cst_4_apply, val_main_v27_apply, val_main_v24_apply, val_main_v20_apply, val_main_v16_apply, val_main_v13_apply,
    val_main_v15_apply, val_main_v19_apply, val_main_v23_apply, val_main_v22_apply, val_main_v21_apply]
  simp only [val_main_v12_apply, val_main_v14_apply, val_main_v17_apply, val_main_v18_apply, toUse_stage,
    in_left, in_right, res_left, res_right, out_left, out_right, bias_at,
    Ideal.addf_def, Ideal.mulf_def, Ideal.hostUnary_tanh_def, Ideal.ofBits_def]

/-! ## The run -/

/-- Every weakly fair execution of the reference ends with its result the specification's new state of the
    arguments' launch contents and the teacher-forced output, the arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v30) = Cert.Spec.newState (m' ((c.tc : Thread Cert.ReferenceIdeal.nD Cert.ReferenceIdeal.τ).loc Cert.ReferenceIdeal.main_arg0)) (refToUse (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) :=
  (θ_run Cert.ReferenceIdeal.defs _ _).mono (fun _ h c => ⟨(h c).1.trans ((val_main_v30_eq _ _ _ _ _ _ _ _ _ _).trans (result_eq _ _ _ _ _ _ _ _ _ _)), (h c).2⟩)
    (Cert.ReferenceIdeal.Value.run (F := Ideal) m' ρ')

end Cert.RefValue

end
-- ==== Proof.lean ====
/- The certificate of the reservoir update kernel against its reference.

   The kernel tiles the batch (2 tiles of 512 rows), the reservoir units (8 tiles of 512) and the recurrent
   contraction (4 tiles of 1024 columns). For each (batch tile, unit tile) it resets a 512 × 512 accumulator to
   bias + input drive + output feedback at the first reduction tile, adds one slice of the recurrent drive per
   reduction tile, and at the last one stores 0.1 · x + 0.9 · tanh (accumulator). The reference computes
   0.1 · x + 0.9 · tanh (input drive + recurrent drive + output feedback + bias) with whole matrix products.
   On the extended reals the two agree index by index: addition there is associative and commutative (no
   finiteness is used), a sum over 4096 columns is the sum of its four slices of 1024, and a change of float
   format is the identity; the two weights are the same single-precision words on both sides and are never
   evaluated, and the teacher-forced output is the same chain of host operations in both programs.

   The state array reaches the kernel through two windows (the reduction operand and the blend operand); each
   holds half of it, which is all an input needs, and the frame is proved over that split. -/
import proofs.«143047_j60146722013580_1_alg».proof.Defs
import proofs.«143047_j60146722013580_1_alg».proof.Proof.Gen.Pre_finite_inputs
import proofs.«143047_j60146722013580_1_alg».proof.Proof.K.Frame
import proofs.«143047_j60146722013580_1_alg».proof.Proof.KI.Value
import proofs.«143047_j60146722013580_1_alg».proof.Proof.RefValue

noncomputable section

namespace Cert.Proof

open Idealize.ShloMosaic Idealize.SL.Sem

/-- The kernel as printed runs to the end, faults nowhere and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.RefValue.ref_run m ρ)

/-- The idealization rewrote no operation. -/
theorem preserves : Cert.preserves_Kernel_KernelIdeal := trivial

/-- The teacher-forced output is one chain of host operations, the same in both programs. -/
theorem toUse_same (a1 a2 : (⟨Cert.ReferenceIdeal.S64x1024, .f32⟩ : BufTy).Contents (Elt Ideal)) (a4 a5 : (⟨Cert.ReferenceIdeal.S1, .f32⟩ : BufTy).Contents (Elt Ideal)) :
    Cert.RefValue.refToUse a1 a2 a4 a5 = Cert.KernelIdeal.Hand.kToUse a1 a2 a4 a5 := rfl

/-- Both programs end with the new state of the specification, of arguments that agree. -/
theorem algebraic : Cert.algebraic_KernelIdeal_ReferenceIdeal := by
  intro m ρ m' ρ' _ hagree
  refine ⟨fun c => Cert.KernelIdeal.Hand.result m c, Cert.KernelIdeal.Hand.kernel_run m ρ, ?_⟩
  refine (θ_run Cert.ReferenceIdeal.defs _ _).mono (fun _ h c => ⟨(h c).1.trans ?_, (h c).2⟩) (Cert.RefValue.ref_run m' ρ')
  obtain ⟨h0, h1, h2, h3, h4, h5, h6, h7, h8, h9⟩ := hagree c
  rw [h0, h1, h2, h3, h4, h5, h6, h7, h8, h9, toUse_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
